-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S256x128 : Shape := ⟨2, ![256, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S256x128 .f32) (main_arg3 : FVec F S256x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S256x128 : Shape := ⟨2, ![256, 128]⟩
abbrev S400x10000 : Shape := ⟨2, ![400, 10000]⟩
abbrev S400x128 : Shape := ⟨2, ![400, 128]⟩
abbrev S128x128 : Shape := ⟨2, ![128, 128]⟩

abbrev nBuf : Space → Nat
  | .hbm => 6
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S256x128, .f32⟩
  | .hbm, ⟨4, _⟩ => ⟨S10000x128, .f32⟩
  | .hbm, ⟨5, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S400x128, .f32⟩
  | .local _ .vmem, ⟨4, _⟩ => ⟨S400x128, .f32⟩
  | .local _ .vmem, ⟨5, _⟩ => ⟨S256x128, .f32⟩
  | .local _ .vmem, ⟨6, _⟩ => ⟨S400x128, .f32⟩
  | .local _ .vmem, ⟨7, _⟩ => ⟨S400x128, .f32⟩
  | .local _ .vmem, ⟨8, _⟩ => ⟨S400x10000, .f32⟩
  | .local _ .vmem, ⟨9, _⟩ => ⟨S400x10000, .f32⟩
  | .local _ .vmem, ⟨10, _⟩ => ⟨S10000x128, .f32⟩
  | .local _ .vmem, ⟨11, _⟩ => ⟨S400x128, .f32⟩
  | .local _ .vmem, ⟨12, _⟩ => ⟨S400x128, .f32⟩
  | .local _ .vmem, ⟨13, _⟩ => ⟨S256x128, .f32⟩
  | .local _ .vmem, ⟨14, _⟩ => ⟨S400x128, .f32⟩
  | .local _ .vmem, ⟨15, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S400x128_S400x128_0_0 : ∀ a, (![0, 0] : Fin 2 → Nat) a + S400x128.size a ≤ S400x128.size a
  h_S400x128 : 0 < S400x128.numel
  inb_S256x128_S128x128_0_0 : ∀ a, (![0, 0] : Fin 2 → Nat) a + S128x128.size a ≤ S256x128.size a
  h_S128x128 : 0 < S128x128.numel
  inb_S256x128_S128x128_128_0 : ∀ a, (![128, 0] : Fin 2 → Nat) a + S128x128.size a ≤ S256x128.size a
  shapeCasts_S10000x128_S10000x128 : S10000x128.ShapeCasts S10000x128
  shapeCasts_S400x128_S400x128 : S400x128.ShapeCasts S400x128
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S256x128 : Shape := ⟨2, ![256, 128]⟩
abbrev S10000x256 : Shape := ⟨2, ![10000, 256]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S256x128, .f32⟩
  | .hbm, ⟨3, _⟩ => ⟨S256x128, .f32⟩
  | .hbm, ⟨4, _⟩ => ⟨S10000x128, .f32⟩
  | .hbm, ⟨5, _⟩ => ⟨S10000x256, .f32⟩
  | .hbm, ⟨6, _⟩ => ⟨S10000x128, .f32⟩
  | .hbm, ⟨7, _⟩ => ⟨S_, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S10000x256, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call1_cst : Ref sig .tc := ⟨.hbm, 13, rfl⟩
abbrev main_call1_v0 : Ref sig .tc := ⟨.hbm, 14, rfl⟩
abbrev main_v7 : Ref sig .tc := ⟨.hbm, 15, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.Kernel.Region0.lean ====
/-
  The first layer's pallas_call, read at the contents `V` the TensorCore's buffers hold when the region is entered.

  The body at a grid point loads the point's 400 rows of the adjacency matrix, the whole feature matrix, the point's 400
  feature rows and both halves of the weight matrix, and stores, over the whole of the output block,
  `max (rows · W[0:128] + (adj rows · features) · W[128:256]) 0`. Nothing is carried from one point to the next, so
  what the output's staging buffer holds after the body is one function `out0` of the four input blocks.

  The feature matrix is handed to the kernel twice (whole, and by row blocks): windows 1 and 2 read ONE array, and
  the proof data deal its share in two halves, one to each window.
-/
import proofs.«115573_g60533269070025_cont_9to1_m_1379_3_alg».proof.Proof.Gen.Kernel.Launch
import proofs.«115573_g60533269070025_cont_9to1_m_1379_3_alg».proof.Proof.Gen.Kernel.Skeleton
import proofs.«115573_g60533269070025_cont_9to1_m_1379_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a window whose
    block index does not move is fetched once and still holds that block); one statement per window, the window a
    literal so that its block's shape computes. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rA0 : Rect S400x10000 := Rect.unit (s := S400x10000) ![0, 0] S400x10000.size inb_S400x10000_S400x10000_0_0
abbrev rX0 : Rect S10000x128 := Rect.unit (s := S10000x128) ![0, 0] S10000x128.size inb_S10000x128_S10000x128_0_0
abbrev rB0 : Rect S400x128 := Rect.unit (s := S400x128) ![0, 0] S400x128.size inb_S400x128_S400x128_0_0
abbrev rWlo0 : Rect S256x128 := Rect.unit (s := S256x128) ![0, 0] S128x128.size inb_S256x128_S128x128_0_0
abbrev rWhi0 : Rect S256x128 := Rect.unit (s := S256x128) ![128, 0] S128x128.size inb_S256x128_S128x128_128_0

/-! ## What the body leaves in the output window's buffer -/

/-- The output's staging buffer after the body, from the input windows' blocks: one store over the whole block. -/
def out0 (a : Vec F S400x10000 .f32) (x : Vec F S10000x128 .f32) (xb : Vec F S400x128 .f32) (w : Vec F S256x128 .f32) : Vec F S400x128 .f32 :=
  View.canon [⟨rB0, k0_pay1 (View.ld a rA0) (View.ld x rX0) (View.ld xb rB0) (View.ld w rWlo0) (View.ld w rWhi0)⟩]

/-- The one store covers the buffer. -/
theorem cover0 (p0 : Vec F S400x128 .f32) (y : S400x128.Idx) :
    ∃ pc ∈ ([⟨rB0, p0⟩] : List (View.Piece (Elt F) S400x128 .f32)), y ∈ pc.1.set :=
  View.cover_of_tiled [⟨rB0, p0⟩] S400x128.size (by rfl) y

/-! ## The body's triple -/

set_option maxHeartbeats 1000000 in
/-- The body on whole staging memrefs, the inputs' at contents read as `a`, `x`, `xb`, `w` and the output's at anything,
    runs to the continuation holding the inputs' as they were and the output's at `out0` of them. -/
theorem sound_kernel0 (c : Dev nD) (E : Set ℕ) (i : grid0.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S256x128 .f32) (harg4 : arg4.IsWhole)
    (arg5 : Memref sig .tc .vmem S400x128 .f32) (harg5 : arg5.IsWhole)
    (a : Vec F S400x10000 .f32) (x : Vec F S10000x128 .f32) (xb : Vec F S400x128 .f32) (w : Vec F S256x128 .f32) (K : PUnit → sProp 𝕄) :
    iprop(owns (c : Thread nD τ) arg1 fullShare a ∗ owns (c : Thread nD τ) arg2 fullShare x ∗ owns (c : Thread nD τ) arg3 fullShare xb
        ∗ owns (c : Thread nD τ) arg4 fullShare w ∗ (∃ d, owns (c : Thread nD τ) arg5 fullShare d)
        ∗ (iprop(owns (c : Thread nD τ) arg1 fullShare a ∗ owns (c : Thread nD τ) arg2 fullShare x ∗ owns (c : Thread nD τ) arg3 fullShare xb
            ∗ owns (c : Thread nD τ) arg4 fullShare w ∗ owns (c : Thread nD τ) arg5 fullShare (out0 a x xb w)) -∗ K ⟨⟩))
      ⊢ wp frame (wpE (defs₀ (F := F)) Variants.none c none) E (cc0__layer_body i arg1 harg1 arg2 harg2 arg3 harg3 arg4 harg4 arg5 harg5) K := by
  simp only [cc0__layer_body_eq_skeleton]; unfold cc0__layer_body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

/-! ## The pipeline's proof data -/

/-- The two halves of the full share: what each of the two windows on the feature matrix holds of it. -/
abbrev shareL : PosShare TreeShare := fullShare.left
abbrev shareR : PosShare TreeShare := fullShare.right

/-- The proof data of pipeline 0 on core `c`: the arrays as the region finds them; after the body at point `t` each
    input's buffer at its block and the output's at `out0` of the input blocks; the invariant the scoped rest and
    the generator register, untouched; nothing owed; the feature matrix's share dealt in halves to its two windows. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 (iblk0 V c 0 t) (iblk0 V c 1 t) (iblk0 V c 2 t) (iblk0 V c 3 t)
  Φ _ := Pipeline.ΦA spec0 c
  q w := match w with
    | ⟨0, _⟩ => fullShare
    | ⟨1, _⟩ => shareL
    | ⟨2, _⟩ => shareR
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.Kernel.Layer

end
-- ==== Proof.Kernel.Region1.lean ====
/-
  The second layer's pallas_call, read at the contents `V` the TensorCore's buffers hold when the region is entered: the
  same body as the first layer's (its two shape casts are between equal shapes), over the first layer's result in place
  of the features — which it reads through two windows, whole and by row blocks, each holding half of that array's
  share — and the second weight matrix.
-/
import proofs.«115573_g60533269070025_cont_9to1_m_1379_3_alg».proof.Proof.Kernel.Region0
import proofs.«115573_g60533269070025_cont_9to1_m_1379_3_alg».proof.Proof.Gen.Kernel.Skeleton
import proofs.«115573_g60533269070025_cont_9to1_m_1379_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Layer

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window whose
    block index does not move is fetched once and still holds that block); one statement per window, the window a
    literal so that its block's shape computes. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev rA1 : Rect S400x10000 := Rect.unit (s := S400x10000) ![0, 0] S400x10000.size inb_S400x10000_S400x10000_0_0
abbrev rX1 : Rect S10000x128 := Rect.unit (s := S10000x128) ![0, 0] S10000x128.size inb_S10000x128_S10000x128_0_0
abbrev rB1 : Rect S400x128 := Rect.unit (s := S400x128) ![0, 0] S400x128.size inb_S400x128_S400x128_0_0
abbrev rWlo1 : Rect S256x128 := Rect.unit (s := S256x128) ![0, 0] S128x128.size inb_S256x128_S128x128_0_0
abbrev rWhi1 : Rect S256x128 := Rect.unit (s := S256x128) ![128, 0] S128x128.size inb_S256x128_S128x128_128_0

/-! ## What the body leaves in the output window's buffer -/

/-- The output's staging buffer after the body, from the input windows' blocks: one store over the whole block. -/
def out1 (a : Vec F S400x10000 .f32) (x : Vec F S10000x128 .f32) (xb : Vec F S400x128 .f32) (w : Vec F S256x128 .f32) : Vec F S400x128 .f32 :=
  View.canon [⟨rB1, k1_pay1 (View.ld a rA1) (View.ld x rX1) (View.ld xb rB1) (View.ld w rWlo1) (View.ld w rWhi1)⟩]

/-- The one store covers the buffer. -/
theorem cover1 (p0 : Vec F S400x128 .f32) (y : S400x128.Idx) :
    ∃ pc ∈ ([⟨rB1, p0⟩] : List (View.Piece (Elt F) S400x128 .f32)), y ∈ pc.1.set :=
  View.cover_of_tiled [⟨rB1, p0⟩] S400x128.size (by rfl) y

/-! ## The body's triple -/

set_option maxHeartbeats 1000000 in
/-- The body on whole staging memrefs, the inputs' at contents read as `a`, `x`, `xb`, `w` and the output's at anything,
    runs to the continuation holding the inputs' as they were and the output's at `out1` of them. -/
theorem sound_kernel1 (c : Dev nD) (E : Set ℕ) (i : grid1.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S256x128 .f32) (harg4 : arg4.IsWhole)
    (arg5 : Memref sig .tc .vmem S400x128 .f32) (harg5 : arg5.IsWhole)
    (a : Vec F S400x10000 .f32) (x : Vec F S10000x128 .f32) (xb : Vec F S400x128 .f32) (w : Vec F S256x128 .f32) (K : PUnit → sProp 𝕄) :
    iprop(owns (c : Thread nD τ) arg1 fullShare a ∗ owns (c : Thread nD τ) arg2 fullShare x ∗ owns (c : Thread nD τ) arg3 fullShare xb
        ∗ owns (c : Thread nD τ) arg4 fullShare w ∗ (∃ d, owns (c : Thread nD τ) arg5 fullShare d)
        ∗ (iprop(owns (c : Thread nD τ) arg1 fullShare a ∗ owns (c : Thread nD τ) arg2 fullShare x ∗ owns (c : Thread nD τ) arg3 fullShare xb
            ∗ owns (c : Thread nD τ) arg4 fullShare w ∗ owns (c : Thread nD τ) arg5 fullShare (out1 a x xb w)) -∗ K ⟨⟩))
      ⊢ wp frame (wpE (defs₀ (F := F)) Variants.none c none) E (cc1__layer_body i arg1 harg1 arg2 harg2 arg3 harg3 arg4 harg4 arg5 harg5) K := by
  simp only [cc1__layer_body_eq_skeleton]; unfold cc1__layer_body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

/-! ## The pipeline's proof data -/

/-- The proof data of pipeline 1 on core `c`: the arrays as the region finds them; after the body at point `t` each
    input's buffer at its block and the output's at `out1` of the input blocks; the invariant the scoped rest and
    the generator register, untouched; nothing owed; the feature matrix's share dealt in halves to its two windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q w := match w with
    | ⟨0, _⟩ => fullShare
    | ⟨1, _⟩ => shareL
    | ⟨2, _⟩ => shareR
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Layer

end
-- ==== Proof.Kernel.Arrays.lean ====
/-
  The windows' arrays among a core's unscoped buffers, when two windows read ONE array.

  At a region's entry the core holds every unscoped buffer whole, at the full share. The pipeline wants one
  points-to per window: for the array two windows read, the full share is split in its two halves, one per window; the
  other arrays go to their windows whole. At the exit the halves are put together again (both still hold the entry
  contents: an input array is never written), and the output array is held at what the write-backs left.
-/
import proofs.«115573_g60533269070025_cont_9to1_m_1379_3_alg».proof.Proof.Kernel.Region1
import Idealize.ShloMosaic.Lib.Pipeline.Kit

set_option maxRecDepth 16384

noncomputable section

namespace Cert.Kernel.Layer

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A whole buffer held at the full share is held in two halves, and back. -/
theorem halves (c : Dev nD) (b : Ref sig .tc) (f : Buf (Elt F) ((c : Thread nD τ).loc b)) :
    ((((c : Thread nD τ).loc b) ↦{fullShare} f : sProp 𝕄))
      ⊣⊢ iprop((((c : Thread nD τ).loc b) ↦{shareL} f) ∗ (((c : Thread nD τ).loc b) ↦{shareR} f)) :=
  pointsTo_share (PosShare.mem_left_op_right fullShare)

/-! ## The first layer's region -/

/-- The buffers behind the first region's arrays, listed. -/
theorem arrBufs0_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_arg1) ↦{fullShare} X main_arg1) ∗ (((c : Thread nD τ).loc main_arg0) ↦{fullShare} X main_arg0)
          ∗ (((c : Thread nD τ).loc main_arg2) ↦{fullShare} X main_arg2) ∗ (((c : Thread nD τ).loc main_call0_v0) ↦{fullShare} X main_call0_v0)) := by
  unfold Pipeline.arrBufs
  exact bigSep_eq_bigSepL_of_eq [main_arg1, main_arg0, main_arg2, main_call0_v0] (by decide) (by decide) _

/-- The first region's arrays, window by window, each at its share. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg1) ↦{fullShare} G 0) ∗ (((c : Thread nD τ).loc main_arg0) ↦{shareL} G 1)
          ∗ (((c : Thread nD τ).loc main_arg0) ↦{shareR} G 2) ∗ (((c : Thread nD τ).loc main_arg2) ↦{fullShare} G 3)
          ∗ (((c : Thread nD τ).loc main_call0_v0) ↦{fullShare} G 4)) := by
  unfold Dat.arrays
  rw [bigSep_W0, (arr_whole0 0).set_eq_univ, (arr_whole0 1).set_eq_univ, (arr_whole0 3).set_eq_univ,
    (arr_whole0 4).set_eq_univ]
  rfl

/-- ENTRY: the core's unscoped buffers at `X` are the first region's arrays at the proof data's entry contents and the rest. -/
theorem entry0 (c : Dev nD) :
    (unscopedBufs c (V c) : sProp 𝕄) ⊢ iprop((dat0 V c).arrays (dat0 V c).A ∗ Pipeline.unscopedRest spec0 c (V c)) := by
  rw [show (unscopedBufs c (V c) : sProp 𝕄) = iprop(Pipeline.arrBufs spec0 c (V c) ∗ Pipeline.unscopedRest spec0 c (V c))
      from Pipeline.unscopedBufs_split₀ cfgs 0 winFacts₀0.arr_unscoped c (V c), arrBufs0_eq, arrays0_eq]
  iintro ⟨⟨H1, H0, H2, Hv⟩, Hrest⟩
  ihave H0' := (halves c main_arg0 _).1 $$ H0
  icases H0' with ⟨H0l, H0r⟩
  isplitr [Hrest]
  · isplitl [H1]; · iexact H1
    isplitl [H0l]; · iexact H0l
    isplitl [H0r]; · iexact H0r
    isplitl [H2]; · iexact H2
    iexact Hv
  · iexact Hrest

/-- EXIT: the first region's arrays after the last point and the rest are the core's unscoped buffers at any valuation that
    holds the output array at what the write-backs left and agrees with the entry contents elsewhere. -/
theorem exit0 (c : Dev nD) (X' : (b : Ref sig .tc) → Buf (Elt F) ((c : Thread nD τ).loc b))
    (hout : X' main_call0_v0 = (dat0 V c).arrAt 4 cfg0.N)
    (hrest : ∀ b, b ≠ main_call0_v0 → X' b = V c b) :
    iprop((dat0 V c).arrays ((dat0 V c).arrAt · cfg0.N) ∗ Pipeline.unscopedRest spec0 c (V c)) ⊢ (unscopedBufs c X' : sProp 𝕄) := by
  rw [show (unscopedBufs c X' : sProp 𝕄) = iprop(Pipeline.arrBufs spec0 c X' ∗ Pipeline.unscopedRest spec0 c X')
      from Pipeline.unscopedBufs_split₀ cfgs 0 winFacts₀0.arr_unscoped c X', arrBufs0_eq, arrays0_eq,
    (dat0 V c).arrAt_in 0 rfl, (dat0 V c).arrAt_in 1 rfl, (dat0 V c).arrAt_in 2 rfl, (dat0 V c).arrAt_in 3 rfl,
    hrest main_arg1 (by decide), hrest main_arg0 (by decide), hrest main_arg2 (by decide), hout]
  have hr : (Pipeline.unscopedRest (Ix := Unit) (Name := ℕ) (U := UR sig nD τ) (Lvl := ℕ) spec0 c X' : sProp 𝕄) = Pipeline.unscopedRest spec0 c (V c) := by
    unfold Pipeline.unscopedRest
    exact bigSep_congr fun b hb => by
      rw [hrest b (fun e => (Finset.mem_sdiff.mp hb).2 (Finset.mem_image.mpr ⟨4, Finset.mem_univ _, e ▸ rfl⟩))]
  rw [hr]
  iintro ⟨⟨H1, H0l, H0r, H2, Hv⟩, Hrest⟩
  isplitr [Hrest]
  · isplitl [H1]; · iexact H1
    isplitl [H0l H0r]
    · iapply (halves c main_arg0 _).2
      isplitl [H0l]; · iexact H0l
      iexact H0r
    isplitl [H2]; · iexact H2
    iexact Hv
  · iexact Hrest

/-! ## The second layer's region -/

/-- The buffers behind the second region's arrays, listed. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_arg1) ↦{fullShare} X main_arg1) ∗ (((c : Thread nD τ).loc main_call0_v0) ↦{fullShare} X main_call0_v0)
          ∗ (((c : Thread nD τ).loc main_arg3) ↦{fullShare} X main_arg3) ∗ (((c : Thread nD τ).loc main_v0) ↦{fullShare} X main_v0)) := by
  unfold Pipeline.arrBufs
  exact bigSep_eq_bigSepL_of_eq [main_arg1, main_call0_v0, main_arg3, main_v0] (by decide) (by decide) _

/-- The second region's arrays, window by window, each at its share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg1) ↦{fullShare} G 0) ∗ (((c : Thread nD τ).loc main_call0_v0) ↦{shareL} G 1)
          ∗ (((c : Thread nD τ).loc main_call0_v0) ↦{shareR} G 2) ∗ (((c : Thread nD τ).loc main_arg3) ↦{fullShare} G 3)
          ∗ (((c : Thread nD τ).loc main_v0) ↦{fullShare} G 4)) := by
  unfold Dat.arrays
  rw [bigSep_W1, (arr_whole1 0).set_eq_univ, (arr_whole1 1).set_eq_univ, (arr_whole1 3).set_eq_univ,
    (arr_whole1 4).set_eq_univ]
  rfl

/-- ENTRY: the core's unscoped buffers at `X` are the second region's arrays at the proof data's entry contents and the rest. -/
theorem entry1 (c : Dev nD) :
    (unscopedBufs c (V c) : sProp 𝕄) ⊢ iprop((dat1 V c).arrays (dat1 V c).A ∗ Pipeline.unscopedRest spec1 c (V c)) := by
  rw [show (unscopedBufs c (V c) : sProp 𝕄) = iprop(Pipeline.arrBufs spec1 c (V c) ∗ Pipeline.unscopedRest spec1 c (V c))
      from Pipeline.unscopedBufs_split₀ cfgs 1 winFacts₀1.arr_unscoped c (V c), arrBufs1_eq, arrays1_eq]
  iintro ⟨⟨H1, H0, H2, Hv⟩, Hrest⟩
  ihave H0' := (halves c main_call0_v0 _).1 $$ H0
  icases H0' with ⟨H0l, H0r⟩
  isplitr [Hrest]
  · isplitl [H1]; · iexact H1
    isplitl [H0l]; · iexact H0l
    isplitl [H0r]; · iexact H0r
    isplitl [H2]; · iexact H2
    iexact Hv
  · iexact Hrest

/-- EXIT: the second region's arrays after the last point and the rest are the core's unscoped buffers at any valuation that
    holds the output array at what the write-backs left and agrees with the entry contents elsewhere. -/
theorem exit1 (c : Dev nD) (X' : (b : Ref sig .tc) → Buf (Elt F) ((c : Thread nD τ).loc b))
    (hout : X' main_v0 = (dat1 V c).arrAt 4 cfg1.N)
    (hrest : ∀ b, b ≠ main_v0 → X' b = V c b) :
    iprop((dat1 V c).arrays ((dat1 V c).arrAt · cfg1.N) ∗ Pipeline.unscopedRest spec1 c (V c)) ⊢ (unscopedBufs c X' : sProp 𝕄) := by
  rw [show (unscopedBufs c X' : sProp 𝕄) = iprop(Pipeline.arrBufs spec1 c X' ∗ Pipeline.unscopedRest spec1 c X')
      from Pipeline.unscopedBufs_split₀ cfgs 1 winFacts₀1.arr_unscoped c X', arrBufs1_eq, arrays1_eq,
    (dat1 V c).arrAt_in 0 rfl, (dat1 V c).arrAt_in 1 rfl, (dat1 V c).arrAt_in 2 rfl, (dat1 V c).arrAt_in 3 rfl,
    hrest main_arg1 (by decide), hrest main_call0_v0 (by decide), hrest main_arg3 (by decide), hout]
  have hr : (Pipeline.unscopedRest (Ix := Unit) (Name := ℕ) (U := UR sig nD τ) (Lvl := ℕ) spec1 c X' : sProp 𝕄) = Pipeline.unscopedRest spec1 c (V c) := by
    unfold Pipeline.unscopedRest
    exact bigSep_congr fun b hb => by
      rw [hrest b (fun e => (Finset.mem_sdiff.mp hb).2 (Finset.mem_image.mpr ⟨4, Finset.mem_univ _, e ▸ rfl⟩))]
  rw [hr]
  iintro ⟨⟨H1, H0l, H0r, H2, Hv⟩, Hrest⟩
  isplitr [Hrest]
  · isplitl [H1]; · iexact H1
    isplitl [H0l H0r]
    · iapply (halves c main_call0_v0 _).2
      isplitl [H0l]; · iexact H0l
      iexact H0r
    isplitl [H2]; · iexact H2
    iexact Hv
  · iexact Hrest

end Cert.Kernel.Layer

end
-- ==== Proof.Kernel.Run.lean ====
/-
  The run of the two-layer program: @main is the first layer's region, then the second layer's.

  Between the items the core holds every unscoped buffer whole at a valuation: at launch the memory's contents; after
  the first region the same but for the first layer's result, now what that region's write-backs left; after the second
  region the same but for the program's result. Each region is entered by splitting its windows' arrays out of that
  valuation (the array read through two windows in two halves) and left by putting them back. The run's post says that
  at the end every unscoped buffer holds the last valuation: from it both the frame (the four arguments are where they
  were) and the result's contents are read.
-/
import proofs.«115573_g60533269070025_cont_9to1_m_1379_3_alg».proof.Proof.Kernel.Arrays
import Idealize.ShloMosaic.Lib.Pipeline.Frame
import Idealize.ShloMosaic.Lib.Pipeline.Regions

set_option maxRecDepth 16384

noncomputable section

namespace Cert.Kernel.Layer

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- Core `c`'s buffers at launch, -/
abbrev W0 : Dev nD → Valuation τ sig (Elt F) := fun c b => m (c, b)
/-- read at the TensorCore's references: what the first region finds. -/
abbrev V0 : (c : Dev nD) → (b : Ref sig .tc) → Buf (Elt F) ((c : Thread nD τ).loc b) := fun c b => W0 m c b
/-- The first layer's result: what the first region's write-backs leave in its output array. -/
def res0 (c : Dev nD) : Buf (Elt F) ((c : Thread nD τ).loc main_call0_v0) := (dat0 (V0 m) c).arrAt 4 cfg0.N
/-- After the first region: the launch contents but for the first layer's result. -/
def W1 (c : Dev nD) : Valuation τ sig (Elt F) := Function.update (W0 m c) main_call0_v0 (res0 m c)
abbrev V1 : (c : Dev nD) → (b : Ref sig .tc) → Buf (Elt F) ((c : Thread nD τ).loc b) := fun c b => W1 m c b
/-- The program's result: what the second region's write-backs leave in its output array. -/
def res1 (c : Dev nD) : Buf (Elt F) ((c : Thread nD τ).loc main_v0) := (dat1 (V1 m) c).arrAt 4 cfg1.N
/-- After the second region. -/
def W2 (c : Dev nD) : Valuation τ sig (Elt F) := Function.update (W1 m c) main_v0 (res1 m c)
abbrev V2 : (c : Dev nD) → (b : Ref sig .tc) → Buf (Elt F) ((c : Thread nD τ).loc b) := fun c b => W2 m c b

theorem V1_out (c : Dev nD) : V1 m c main_call0_v0 = res0 m c := by
  show W1 m c _ = _; unfold W1; exact Function.update_self ..
theorem V1_of_ne (c : Dev nD) (b : Ref sig .tc) (h : b ≠ main_call0_v0) : V1 m c b = V0 m c b := by
  show W1 m c _ = W0 m c _; unfold W1; exact Function.update_of_ne (StableHlo.devRef_ne_of_ne h) ..
theorem V2_out (c : Dev nD) : V2 m c main_v0 = res1 m c := by
  show W2 m c _ = _; unfold W2; exact Function.update_self ..
theorem V2_of_ne (c : Dev nD) (b : Ref sig .tc) (h : b ≠ main_v0) : V2 m c b = V1 m c b := by
  show W2 m c _ = W1 m c _; unfold W2; exact Function.update_of_ne (StableHlo.devRef_ne_of_ne h) ..

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- The first layer's region: entered from every unscoped buffer at the launch contents, left at `W1`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := entry0 (V0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (V0 m) c (V1 m c) (V1_out m c) (fun b hb => V1_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second layer's region: entered from every unscoped buffer at `W1`, left at `W2`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := entry1 (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V1 m) c (V2 m c) (V2_out m c) (fun b hb => V2_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's two items in order. -/
abbrev segs : List (Pipeline.Seg (pcfgs (F := F)) adm (pdats m) () defs₀ 𝒱₀ L lv) :=
  [ .region (reg0 m), .region (reg1 m) ]
/-- @main IS the run of the segments. -/
theorem main_run (c : Dev nD) : main (F := F) c = Pipeline.Seg.run (segs m) := main_segs adm (pdats m) () 𝒱₀ L lv (reg0 m) (reg1 m) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, and
    the final memory holds, at every unscoped buffer of every core, the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-! ## What the run's post says of the arguments and of the result -/

theorem W2_main_arg0 (c : Dev nD) : W2 m c (Proc.devRef .tc main_arg0) = m ((c : Thread nD τ).loc main_arg0) :=
  (V2_of_ne m c main_arg0 (by decide)).trans (V1_of_ne m c main_arg0 (by decide))
theorem W2_main_arg1 (c : Dev nD) : W2 m c (Proc.devRef .tc main_arg1) = m ((c : Thread nD τ).loc main_arg1) :=
  (V2_of_ne m c main_arg1 (by decide)).trans (V1_of_ne m c main_arg1 (by decide))
theorem W2_main_arg2 (c : Dev nD) : W2 m c (Proc.devRef .tc main_arg2) = m ((c : Thread nD τ).loc main_arg2) :=
  (V2_of_ne m c main_arg2 (by decide)).trans (V1_of_ne m c main_arg2 (by decide))
theorem W2_main_arg3 (c : Dev nD) : W2 m c (Proc.devRef .tc main_arg3) = m ((c : Thread nD τ).loc main_arg3) :=
  (V2_of_ne m c main_arg3 (by decide)).trans (V1_of_ne m c main_arg3 (by decide))

/-- THE FRAME: the program runs and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c)⟩) (run_main m ρ)

/-- THE RESULT, with the frame: the program's result array ends at the second region's write-backs (`res1`). -/
theorem run_result : θ_run defs (onTc (τ := τ) (main (F := F))) ⟨m, fun _ => 0, ρ⟩ (fun r => ∀ c : Dev nD,
      r.2.mem ((c.tc : Thread nD τ).loc main_v0) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v0 (by decide))).trans (V2_out m c),
     (h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c)⟩) (run_main m ρ)

end Cert.Kernel.Layer

end
-- ==== Proof.KernelIdeal.Region0.lean ====
/-
  The first layer's pallas_call, read at the contents `V` the TensorCore's buffers hold when the region is entered.

  The body at a grid point loads the point's 400 rows of the adjacency matrix, the whole feature matrix, the point's 400
  feature rows and both halves of the weight matrix, and stores, over the whole of the output block,
  `max (rows · W[0:128] + (adj rows · features) · W[128:256]) 0`. Nothing is carried from one point to the next, so
  what the output's staging buffer holds after the body is one function `out0` of the four input blocks.

  The feature matrix is handed to the kernel twice (whole, and by row blocks): windows 1 and 2 read ONE array, and
  the proof data deal its share in two halves, one to each window.
-/
import proofs.«115573_g60533269070025_cont_9to1_m_1379_3_alg».proof.Proof.Gen.KernelIdeal.Launch
import proofs.«115573_g60533269070025_cont_9to1_m_1379_3_alg».proof.Proof.Gen.KernelIdeal.Skeleton
import proofs.«115573_g60533269070025_cont_9to1_m_1379_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (a window whose
    block index does not move is fetched once and still holds that block); one statement per window, the window a
    literal so that its block's shape computes. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rA0 : Rect S400x10000 := Rect.unit (s := S400x10000) ![0, 0] S400x10000.size inb_S400x10000_S400x10000_0_0
abbrev rX0 : Rect S10000x128 := Rect.unit (s := S10000x128) ![0, 0] S10000x128.size inb_S10000x128_S10000x128_0_0
abbrev rB0 : Rect S400x128 := Rect.unit (s := S400x128) ![0, 0] S400x128.size inb_S400x128_S400x128_0_0
abbrev rWlo0 : Rect S256x128 := Rect.unit (s := S256x128) ![0, 0] S128x128.size inb_S256x128_S128x128_0_0
abbrev rWhi0 : Rect S256x128 := Rect.unit (s := S256x128) ![128, 0] S128x128.size inb_S256x128_S128x128_128_0

/-! ## What the body leaves in the output window's buffer -/

/-- The output's staging buffer after the body, from the input windows' blocks: one store over the whole block. -/
def out0 (a : Vec F S400x10000 .f32) (x : Vec F S10000x128 .f32) (xb : Vec F S400x128 .f32) (w : Vec F S256x128 .f32) : Vec F S400x128 .f32 :=
  View.canon [⟨rB0, k0_pay1 (View.ld a rA0) (View.ld x rX0) (View.ld xb rB0) (View.ld w rWlo0) (View.ld w rWhi0)⟩]

/-- The one store covers the buffer. -/
theorem cover0 (p0 : Vec F S400x128 .f32) (y : S400x128.Idx) :
    ∃ pc ∈ ([⟨rB0, p0⟩] : List (View.Piece (Elt F) S400x128 .f32)), y ∈ pc.1.set :=
  View.cover_of_tiled [⟨rB0, p0⟩] S400x128.size (by rfl) y

/-! ## The body's triple -/

set_option maxHeartbeats 1000000 in
/-- The body on whole staging memrefs, the inputs' at contents read as `a`, `x`, `xb`, `w` and the output's at anything,
    runs to the continuation holding the inputs' as they were and the output's at `out0` of them. -/
theorem sound_kernel0 (c : Dev nD) (E : Set ℕ) (i : grid0.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S256x128 .f32) (harg4 : arg4.IsWhole)
    (arg5 : Memref sig .tc .vmem S400x128 .f32) (harg5 : arg5.IsWhole)
    (a : Vec F S400x10000 .f32) (x : Vec F S10000x128 .f32) (xb : Vec F S400x128 .f32) (w : Vec F S256x128 .f32) (K : PUnit → sProp 𝕄) :
    iprop(owns (c : Thread nD τ) arg1 fullShare a ∗ owns (c : Thread nD τ) arg2 fullShare x ∗ owns (c : Thread nD τ) arg3 fullShare xb
        ∗ owns (c : Thread nD τ) arg4 fullShare w ∗ (∃ d, owns (c : Thread nD τ) arg5 fullShare d)
        ∗ (iprop(owns (c : Thread nD τ) arg1 fullShare a ∗ owns (c : Thread nD τ) arg2 fullShare x ∗ owns (c : Thread nD τ) arg3 fullShare xb
            ∗ owns (c : Thread nD τ) arg4 fullShare w ∗ owns (c : Thread nD τ) arg5 fullShare (out0 a x xb w)) -∗ K ⟨⟩))
      ⊢ wp frame (wpE (defs₀ (F := F)) Variants.none c none) E (cc0__layer_body i arg1 harg1 arg2 harg2 arg3 harg3 arg4 harg4 arg5 harg5) K := by
  simp only [cc0__layer_body_eq_skeleton]; unfold cc0__layer_body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0 _)

/-! ## The pipeline's proof data -/

/-- The two halves of the full share: what each of the two windows on the feature matrix holds of it. -/
abbrev shareL : PosShare TreeShare := fullShare.left
abbrev shareR : PosShare TreeShare := fullShare.right

/-- The proof data of pipeline 0 on core `c`: the arrays as the region finds them; after the body at point `t` each
    input's buffer at its block and the output's at `out0` of the input blocks; the invariant the scoped rest and
    the generator register, untouched; nothing owed; the feature matrix's share dealt in halves to its two windows. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 (iblk0 V c 0 t) (iblk0 V c 1 t) (iblk0 V c 2 t) (iblk0 V c 3 t)
  Φ _ := Pipeline.ΦA spec0 c
  q w := match w with
    | ⟨0, _⟩ => fullShare
    | ⟨1, _⟩ => shareL
    | ⟨2, _⟩ => shareR
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.KernelIdeal.Layer

end
-- ==== Proof.KernelIdeal.Region1.lean ====
/-
  The second layer's pallas_call, read at the contents `V` the TensorCore's buffers hold when the region is entered: the
  same body as the first layer's (its two shape casts are between equal shapes), over the first layer's result in place
  of the features — which it reads through two windows, whole and by row blocks, each holding half of that array's
  share — and the second weight matrix.
-/
import proofs.«115573_g60533269070025_cont_9to1_m_1379_3_alg».proof.Proof.KernelIdeal.Region0
import proofs.«115573_g60533269070025_cont_9to1_m_1379_3_alg».proof.Proof.Gen.KernelIdeal.Skeleton
import proofs.«115573_g60533269070025_cont_9to1_m_1379_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (a window whose
    block index does not move is fetched once and still holds that block); one statement per window, the window a
    literal so that its block's shape computes. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev rA1 : Rect S400x10000 := Rect.unit (s := S400x10000) ![0, 0] S400x10000.size inb_S400x10000_S400x10000_0_0
abbrev rX1 : Rect S10000x128 := Rect.unit (s := S10000x128) ![0, 0] S10000x128.size inb_S10000x128_S10000x128_0_0
abbrev rB1 : Rect S400x128 := Rect.unit (s := S400x128) ![0, 0] S400x128.size inb_S400x128_S400x128_0_0
abbrev rWlo1 : Rect S256x128 := Rect.unit (s := S256x128) ![0, 0] S128x128.size inb_S256x128_S128x128_0_0
abbrev rWhi1 : Rect S256x128 := Rect.unit (s := S256x128) ![128, 0] S128x128.size inb_S256x128_S128x128_128_0

/-! ## What the body leaves in the output window's buffer -/

/-- The output's staging buffer after the body, from the input windows' blocks: one store over the whole block. -/
def out1 (a : Vec F S400x10000 .f32) (x : Vec F S10000x128 .f32) (xb : Vec F S400x128 .f32) (w : Vec F S256x128 .f32) : Vec F S400x128 .f32 :=
  View.canon [⟨rB1, k1_pay1 (View.ld a rA1) (View.ld x rX1) (View.ld xb rB1) (View.ld w rWlo1) (View.ld w rWhi1)⟩]

/-- The one store covers the buffer. -/
theorem cover1 (p0 : Vec F S400x128 .f32) (y : S400x128.Idx) :
    ∃ pc ∈ ([⟨rB1, p0⟩] : List (View.Piece (Elt F) S400x128 .f32)), y ∈ pc.1.set :=
  View.cover_of_tiled [⟨rB1, p0⟩] S400x128.size (by rfl) y

/-! ## The body's triple -/

set_option maxHeartbeats 1000000 in
/-- The body on whole staging memrefs, the inputs' at contents read as `a`, `x`, `xb`, `w` and the output's at anything,
    runs to the continuation holding the inputs' as they were and the output's at `out1` of them. -/
theorem sound_kernel1 (c : Dev nD) (E : Set ℕ) (i : grid1.Coords)
    (arg1 : Memref sig .tc .vmem S400x10000 .f32) (harg1 : arg1.IsWhole) (arg2 : Memref sig .tc .vmem S10000x128 .f32) (harg2 : arg2.IsWhole)
    (arg3 : Memref sig .tc .vmem S400x128 .f32) (harg3 : arg3.IsWhole) (arg4 : Memref sig .tc .vmem S256x128 .f32) (harg4 : arg4.IsWhole)
    (arg5 : Memref sig .tc .vmem S400x128 .f32) (harg5 : arg5.IsWhole)
    (a : Vec F S400x10000 .f32) (x : Vec F S10000x128 .f32) (xb : Vec F S400x128 .f32) (w : Vec F S256x128 .f32) (K : PUnit → sProp 𝕄) :
    iprop(owns (c : Thread nD τ) arg1 fullShare a ∗ owns (c : Thread nD τ) arg2 fullShare x ∗ owns (c : Thread nD τ) arg3 fullShare xb
        ∗ owns (c : Thread nD τ) arg4 fullShare w ∗ (∃ d, owns (c : Thread nD τ) arg5 fullShare d)
        ∗ (iprop(owns (c : Thread nD τ) arg1 fullShare a ∗ owns (c : Thread nD τ) arg2 fullShare x ∗ owns (c : Thread nD τ) arg3 fullShare xb
            ∗ owns (c : Thread nD τ) arg4 fullShare w ∗ owns (c : Thread nD τ) arg5 fullShare (out1 a x xb w)) -∗ K ⟨⟩))
      ⊢ wp frame (wpE (defs₀ (F := F)) Variants.none c none) E (cc1__layer_body i arg1 harg1 arg2 harg2 arg3 harg3 arg4 harg4 arg5 harg5) K := by
  simp only [cc1__layer_body_eq_skeleton]; unfold cc1__layer_body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

/-! ## The pipeline's proof data -/

/-- The proof data of pipeline 1 on core `c`: the arrays as the region finds them; after the body at point `t` each
    input's buffer at its block and the output's at `out1` of the input blocks; the invariant the scoped rest and
    the generator register, untouched; nothing owed; the feature matrix's share dealt in halves to its two windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 (iblk1 V c 0 t) (iblk1 V c 1 t) (iblk1 V c 2 t) (iblk1 V c 3 t)
  Φ _ := Pipeline.ΦA spec1 c
  q w := match w with
    | ⟨0, _⟩ => fullShare
    | ⟨1, _⟩ => shareL
    | ⟨2, _⟩ => shareR
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Layer

end
-- ==== Proof.KernelIdeal.Arrays.lean ====
/-
  The windows' arrays among a core's unscoped buffers, when two windows read ONE array.

  At a region's entry the core holds every unscoped buffer whole, at the full share. The pipeline wants one
  points-to per window: for the array two windows read, the full share is split in its two halves, one per window; the
  other arrays go to their windows whole. At the exit the halves are put together again (both still hold the entry
  contents: an input array is never written), and the output array is held at what the write-backs left.
-/
import proofs.«115573_g60533269070025_cont_9to1_m_1379_3_alg».proof.Proof.KernelIdeal.Region1
import Idealize.ShloMosaic.Lib.Pipeline.Kit

set_option maxRecDepth 16384

noncomputable section

namespace Cert.KernelIdeal.Layer

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A whole buffer held at the full share is held in two halves, and back. -/
theorem halves (c : Dev nD) (b : Ref sig .tc) (f : Buf (Elt F) ((c : Thread nD τ).loc b)) :
    ((((c : Thread nD τ).loc b) ↦{fullShare} f : sProp 𝕄))
      ⊣⊢ iprop((((c : Thread nD τ).loc b) ↦{shareL} f) ∗ (((c : Thread nD τ).loc b) ↦{shareR} f)) :=
  pointsTo_share (PosShare.mem_left_op_right fullShare)

/-! ## The first layer's region -/

/-- The buffers behind the first region's arrays, listed. -/
theorem arrBufs0_eq (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_arg1) ↦{fullShare} X main_arg1) ∗ (((c : Thread nD τ).loc main_arg0) ↦{fullShare} X main_arg0)
          ∗ (((c : Thread nD τ).loc main_arg2) ↦{fullShare} X main_arg2) ∗ (((c : Thread nD τ).loc main_call0_v0) ↦{fullShare} X main_call0_v0)) := by
  unfold Pipeline.arrBufs
  exact bigSep_eq_bigSepL_of_eq [main_arg1, main_arg0, main_arg2, main_call0_v0] (by decide) (by decide) _

/-- The first region's arrays, window by window, each at its share. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg1) ↦{fullShare} G 0) ∗ (((c : Thread nD τ).loc main_arg0) ↦{shareL} G 1)
          ∗ (((c : Thread nD τ).loc main_arg0) ↦{shareR} G 2) ∗ (((c : Thread nD τ).loc main_arg2) ↦{fullShare} G 3)
          ∗ (((c : Thread nD τ).loc main_call0_v0) ↦{fullShare} G 4)) := by
  unfold Dat.arrays
  rw [bigSep_W0, (arr_whole0 0).set_eq_univ, (arr_whole0 1).set_eq_univ, (arr_whole0 3).set_eq_univ,
    (arr_whole0 4).set_eq_univ]
  rfl

/-- ENTRY: the core's unscoped buffers at `X` are the first region's arrays at the proof data's entry contents and the rest. -/
theorem entry0 (c : Dev nD) :
    (unscopedBufs c (V c) : sProp 𝕄) ⊢ iprop((dat0 V c).arrays (dat0 V c).A ∗ Pipeline.unscopedRest spec0 c (V c)) := by
  rw [show (unscopedBufs c (V c) : sProp 𝕄) = iprop(Pipeline.arrBufs spec0 c (V c) ∗ Pipeline.unscopedRest spec0 c (V c))
      from Pipeline.unscopedBufs_split₀ cfgs 0 winFacts₀0.arr_unscoped c (V c), arrBufs0_eq, arrays0_eq]
  iintro ⟨⟨H1, H0, H2, Hv⟩, Hrest⟩
  ihave H0' := (halves c main_arg0 _).1 $$ H0
  icases H0' with ⟨H0l, H0r⟩
  isplitr [Hrest]
  · isplitl [H1]; · iexact H1
    isplitl [H0l]; · iexact H0l
    isplitl [H0r]; · iexact H0r
    isplitl [H2]; · iexact H2
    iexact Hv
  · iexact Hrest

/-- EXIT: the first region's arrays after the last point and the rest are the core's unscoped buffers at any valuation that
    holds the output array at what the write-backs left and agrees with the entry contents elsewhere. -/
theorem exit0 (c : Dev nD) (X' : (b : Ref sig .tc) → Buf (Elt F) ((c : Thread nD τ).loc b))
    (hout : X' main_call0_v0 = (dat0 V c).arrAt 4 cfg0.N)
    (hrest : ∀ b, b ≠ main_call0_v0 → X' b = V c b) :
    iprop((dat0 V c).arrays ((dat0 V c).arrAt · cfg0.N) ∗ Pipeline.unscopedRest spec0 c (V c)) ⊢ (unscopedBufs c X' : sProp 𝕄) := by
  rw [show (unscopedBufs c X' : sProp 𝕄) = iprop(Pipeline.arrBufs spec0 c X' ∗ Pipeline.unscopedRest spec0 c X')
      from Pipeline.unscopedBufs_split₀ cfgs 0 winFacts₀0.arr_unscoped c X', arrBufs0_eq, arrays0_eq,
    (dat0 V c).arrAt_in 0 rfl, (dat0 V c).arrAt_in 1 rfl, (dat0 V c).arrAt_in 2 rfl, (dat0 V c).arrAt_in 3 rfl,
    hrest main_arg1 (by decide), hrest main_arg0 (by decide), hrest main_arg2 (by decide), hout]
  have hr : (Pipeline.unscopedRest (Ix := Unit) (Name := ℕ) (U := UR sig nD τ) (Lvl := ℕ) spec0 c X' : sProp 𝕄) = Pipeline.unscopedRest spec0 c (V c) := by
    unfold Pipeline.unscopedRest
    exact bigSep_congr fun b hb => by
      rw [hrest b (fun e => (Finset.mem_sdiff.mp hb).2 (Finset.mem_image.mpr ⟨4, Finset.mem_univ _, e ▸ rfl⟩))]
  rw [hr]
  iintro ⟨⟨H1, H0l, H0r, H2, Hv⟩, Hrest⟩
  isplitr [Hrest]
  · isplitl [H1]; · iexact H1
    isplitl [H0l H0r]
    · iapply (halves c main_arg0 _).2
      isplitl [H0l]; · iexact H0l
      iexact H0r
    isplitl [H2]; · iexact H2
    iexact Hv
  · iexact Hrest

/-! ## The second layer's region -/

/-- The buffers behind the second region's arrays, listed. -/
theorem arrBufs1_eq (c : Dev nD) (X : (b : Ref sig .tc) → Buf (Elt F) ((c : Thread nD τ).loc b)) :
    (Pipeline.arrBufs (Ix := Unit) (Name := ℕ) (U := UR sig nD τ) (Lvl := ℕ) spec1 c X : sProp 𝕄)
      = iprop((((c : Thread nD τ).loc main_arg1) ↦{fullShare} X main_arg1) ∗ (((c : Thread nD τ).loc main_call0_v0) ↦{fullShare} X main_call0_v0)
          ∗ (((c : Thread nD τ).loc main_arg3) ↦{fullShare} X main_arg3) ∗ (((c : Thread nD τ).loc main_v0) ↦{fullShare} X main_v0)) := by
  unfold Pipeline.arrBufs
  exact bigSep_eq_bigSepL_of_eq [main_arg1, main_call0_v0, main_arg3, main_v0] (by decide) (by decide) _

/-- The second region's arrays, window by window, each at its share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg1) ↦{fullShare} G 0) ∗ (((c : Thread nD τ).loc main_call0_v0) ↦{shareL} G 1)
          ∗ (((c : Thread nD τ).loc main_call0_v0) ↦{shareR} G 2) ∗ (((c : Thread nD τ).loc main_arg3) ↦{fullShare} G 3)
          ∗ (((c : Thread nD τ).loc main_v0) ↦{fullShare} G 4)) := by
  unfold Dat.arrays
  rw [bigSep_W1, (arr_whole1 0).set_eq_univ, (arr_whole1 1).set_eq_univ, (arr_whole1 3).set_eq_univ,
    (arr_whole1 4).set_eq_univ]
  rfl

/-- ENTRY: the core's unscoped buffers at `X` are the second region's arrays at the proof data's entry contents and the rest. -/
theorem entry1 (c : Dev nD) :
    (unscopedBufs c (V c) : sProp 𝕄) ⊢ iprop((dat1 V c).arrays (dat1 V c).A ∗ Pipeline.unscopedRest spec1 c (V c)) := by
  rw [show (unscopedBufs c (V c) : sProp 𝕄) = iprop(Pipeline.arrBufs spec1 c (V c) ∗ Pipeline.unscopedRest spec1 c (V c))
      from Pipeline.unscopedBufs_split₀ cfgs 1 winFacts₀1.arr_unscoped c (V c), arrBufs1_eq, arrays1_eq]
  iintro ⟨⟨H1, H0, H2, Hv⟩, Hrest⟩
  ihave H0' := (halves c main_call0_v0 _).1 $$ H0
  icases H0' with ⟨H0l, H0r⟩
  isplitr [Hrest]
  · isplitl [H1]; · iexact H1
    isplitl [H0l]; · iexact H0l
    isplitl [H0r]; · iexact H0r
    isplitl [H2]; · iexact H2
    iexact Hv
  · iexact Hrest

/-- EXIT: the second region's arrays after the last point and the rest are the core's unscoped buffers at any valuation that
    holds the output array at what the write-backs left and agrees with the entry contents elsewhere. -/
theorem exit1 (c : Dev nD) (X' : (b : Ref sig .tc) → Buf (Elt F) ((c : Thread nD τ).loc b))
    (hout : X' main_v0 = (dat1 V c).arrAt 4 cfg1.N)
    (hrest : ∀ b, b ≠ main_v0 → X' b = V c b) :
    iprop((dat1 V c).arrays ((dat1 V c).arrAt · cfg1.N) ∗ Pipeline.unscopedRest spec1 c (V c)) ⊢ (unscopedBufs c X' : sProp 𝕄) := by
  rw [show (unscopedBufs c X' : sProp 𝕄) = iprop(Pipeline.arrBufs spec1 c X' ∗ Pipeline.unscopedRest spec1 c X')
      from Pipeline.unscopedBufs_split₀ cfgs 1 winFacts₀1.arr_unscoped c X', arrBufs1_eq, arrays1_eq,
    (dat1 V c).arrAt_in 0 rfl, (dat1 V c).arrAt_in 1 rfl, (dat1 V c).arrAt_in 2 rfl, (dat1 V c).arrAt_in 3 rfl,
    hrest main_arg1 (by decide), hrest main_call0_v0 (by decide), hrest main_arg3 (by decide), hout]
  have hr : (Pipeline.unscopedRest (Ix := Unit) (Name := ℕ) (U := UR sig nD τ) (Lvl := ℕ) spec1 c X' : sProp 𝕄) = Pipeline.unscopedRest spec1 c (V c) := by
    unfold Pipeline.unscopedRest
    exact bigSep_congr fun b hb => by
      rw [hrest b (fun e => (Finset.mem_sdiff.mp hb).2 (Finset.mem_image.mpr ⟨4, Finset.mem_univ _, e ▸ rfl⟩))]
  rw [hr]
  iintro ⟨⟨H1, H0l, H0r, H2, Hv⟩, Hrest⟩
  isplitr [Hrest]
  · isplitl [H1]; · iexact H1
    isplitl [H0l H0r]
    · iapply (halves c main_call0_v0 _).2
      isplitl [H0l]; · iexact H0l
      iexact H0r
    isplitl [H2]; · iexact H2
    iexact Hv
  · iexact Hrest

end Cert.KernelIdeal.Layer

end
-- ==== Proof.KernelIdeal.Run.lean ====
/-
  The run of the two-layer program: @main is the first layer's region, then the second layer's.

  Between the items the core holds every unscoped buffer whole at a valuation: at launch the memory's contents; after
  the first region the same but for the first layer's result, now what that region's write-backs left; after the second
  region the same but for the program's result. Each region is entered by splitting its windows' arrays out of that
  valuation (the array read through two windows in two halves) and left by putting them back. The run's post says that
  at the end every unscoped buffer holds the last valuation: from it both the frame (the four arguments are where they
  were) and the result's contents are read.
-/
import proofs.«115573_g60533269070025_cont_9to1_m_1379_3_alg».proof.Proof.KernelIdeal.Arrays
import Idealize.ShloMosaic.Lib.Pipeline.Frame
import Idealize.ShloMosaic.Lib.Pipeline.Regions

set_option maxRecDepth 16384

noncomputable section

namespace Cert.KernelIdeal.Layer

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- Core `c`'s buffers at launch, -/
abbrev W0 : Dev nD → Valuation τ sig (Elt F) := fun c b => m (c, b)
/-- read at the TensorCore's references: what the first region finds. -/
abbrev V0 : (c : Dev nD) → (b : Ref sig .tc) → Buf (Elt F) ((c : Thread nD τ).loc b) := fun c b => W0 m c b
/-- The first layer's result: what the first region's write-backs leave in its output array. -/
def res0 (c : Dev nD) : Buf (Elt F) ((c : Thread nD τ).loc main_call0_v0) := (dat0 (V0 m) c).arrAt 4 cfg0.N
/-- After the first region: the launch contents but for the first layer's result. -/
def W1 (c : Dev nD) : Valuation τ sig (Elt F) := Function.update (W0 m c) main_call0_v0 (res0 m c)
abbrev V1 : (c : Dev nD) → (b : Ref sig .tc) → Buf (Elt F) ((c : Thread nD τ).loc b) := fun c b => W1 m c b
/-- The program's result: what the second region's write-backs leave in its output array. -/
def res1 (c : Dev nD) : Buf (Elt F) ((c : Thread nD τ).loc main_v0) := (dat1 (V1 m) c).arrAt 4 cfg1.N
/-- After the second region. -/
def W2 (c : Dev nD) : Valuation τ sig (Elt F) := Function.update (W1 m c) main_v0 (res1 m c)
abbrev V2 : (c : Dev nD) → (b : Ref sig .tc) → Buf (Elt F) ((c : Thread nD τ).loc b) := fun c b => W2 m c b

theorem V1_out (c : Dev nD) : V1 m c main_call0_v0 = res0 m c := by
  show W1 m c _ = _; unfold W1; exact Function.update_self ..
theorem V1_of_ne (c : Dev nD) (b : Ref sig .tc) (h : b ≠ main_call0_v0) : V1 m c b = V0 m c b := by
  show W1 m c _ = W0 m c _; unfold W1; exact Function.update_of_ne (StableHlo.devRef_ne_of_ne h) ..
theorem V2_out (c : Dev nD) : V2 m c main_v0 = res1 m c := by
  show W2 m c _ = _; unfold W2; exact Function.update_self ..
theorem V2_of_ne (c : Dev nD) (b : Ref sig .tc) (h : b ≠ main_v0) : V2 m c b = V1 m c b := by
  show W2 m c _ = W1 m c _; unfold W2; exact Function.update_of_ne (StableHlo.devRef_ne_of_ne h) ..

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- The first layer's region: entered from every unscoped buffer at the launch contents, left at `W1`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := entry0 (V0 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit0 (V0 m) c (V1 m c) (V1_out m c) (fun b hb => V1_of_ne m c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- The second layer's region: entered from every unscoped buffer at `W1`, left at `W2`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := entry1 (V1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (V1 m) c (V2 m c) (V2_out m c) (fun b hb => V2_of_ne m c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's two items in order. -/
abbrev segs : List (Pipeline.Seg (pcfgs (F := F)) adm (pdats m) () defs₀ 𝒱₀ L lv) :=
  [ .region (reg0 m), .region (reg1 m) ]
/-- @main IS the run of the segments. -/
theorem main_run (c : Dev nD) : main (F := F) c = Pipeline.Seg.run (segs m) := main_segs adm (pdats m) () 𝒱₀ L lv (reg0 m) (reg1 m) c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, and
    the final memory holds, at every unscoped buffer of every core, the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-! ## What the run's post says of the arguments and of the result -/

theorem W2_main_arg0 (c : Dev nD) : W2 m c (Proc.devRef .tc main_arg0) = m ((c : Thread nD τ).loc main_arg0) :=
  (V2_of_ne m c main_arg0 (by decide)).trans (V1_of_ne m c main_arg0 (by decide))
theorem W2_main_arg1 (c : Dev nD) : W2 m c (Proc.devRef .tc main_arg1) = m ((c : Thread nD τ).loc main_arg1) :=
  (V2_of_ne m c main_arg1 (by decide)).trans (V1_of_ne m c main_arg1 (by decide))
theorem W2_main_arg2 (c : Dev nD) : W2 m c (Proc.devRef .tc main_arg2) = m ((c : Thread nD τ).loc main_arg2) :=
  (V2_of_ne m c main_arg2 (by decide)).trans (V1_of_ne m c main_arg2 (by decide))
theorem W2_main_arg3 (c : Dev nD) : W2 m c (Proc.devRef .tc main_arg3) = m ((c : Thread nD τ).loc main_arg3) :=
  (V2_of_ne m c main_arg3 (by decide)).trans (V1_of_ne m c main_arg3 (by decide))

/-- THE FRAME: the program runs and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c)⟩) (run_main m ρ)

/-- THE RESULT, with the frame: the program's result array ends at the second region's write-backs (`res1`). -/
theorem run_result : θ_run defs (onTc (τ := τ) (main (F := F))) ⟨m, fun _ => 0, ρ⟩ (fun r => ∀ c : Dev nD,
      r.2.mem ((c.tc : Thread nD τ).loc main_v0) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v0 (by decide))).trans (V2_out m c),
     (h c _ (mem_uc main_arg0 (by decide))).trans (W2_main_arg0 m c),
     (h c _ (mem_uc main_arg1 (by decide))).trans (W2_main_arg1 m c),
     (h c _ (mem_uc main_arg2 (by decide))).trans (W2_main_arg2 m c),
     (h c _ (mem_uc main_arg3 (by decide))).trans (W2_main_arg3 m c)⟩) (run_main m ρ)

end Cert.KernelIdeal.Layer

end
-- ==== Proof.KernelIdeal.Payload.lean ====
/-
  The bodies' arithmetic read at an index, on the extended reals: the stored value at row `r`, feature `j` of a block is
  `max (Σ_k xb[r,k] · wlo[k,j] + Σ_k (Σ_l a[r,l] · x[l,k]) · whi[k,j]) 0` — three matrix products into zero accumulators (plain
  sums at this instance), one addition, one maximum with the zero splat.
-/
import proofs.«115573_g60533269070025_cont_9to1_m_1379_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.LayerValue

open Cert.KernelIdeal Cert.KernelIdeal.Gen
open Idealize.ShloMosaic Idealize.ShloMosaic.ValueIdx

/-! ## The aggregation product, [400, 10000] · [10000, 128] -/

/-- The left operand's row coordinate is the output's row. -/
theorem lhs_agg_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
/-- The left operand's column coordinate is the contraction coordinate. -/
theorem lhs_agg_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- The right operand's row coordinate is the contraction coordinate. -/
theorem rhs_agg_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
/-- The right operand's column coordinate is the output's column. -/
theorem rhs_agg_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- A [400, 10000] · [10000, 128] product into the zero accumulator, at row `p`, column `q`: the plain sum over the
    10000 contracted coordinates. -/
theorem matmul_agg_apply (l : Vec Ideal S400x10000 .f32) (w : Vec Ideal S10000x128 .f32) (p : Fin 400) (q : Fin 128) :
    matmul (F := Ideal) (φ₁ := .f32) (φ₂ := .f32) dot_S400x10000_S10000x128_S400x128_1_0_0_1_n_n none l w (constant S400x128 .f32 0x00000000#32) (ix2 p q)
      = ∑ k : Fin 10000, l (ix2 p k) * w (ix2 k q) := by
  refine (Ideal.matmul_constant_zero_apply (φ₁ := .f32) (φ₂ := .f32) dot_S400x10000_S10000x128_S400x128_1_0_0_1_n_n none l w (ix2 p q)).trans ?_
  rw [← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 p q) ((ValueIdx.contrEquiv1 dot_S400x10000_S10000x128_S400x128_1_0_0_1_n_n 10000 rfl rfl).symm k) = ix2 p k := funext fun a => Fin.ext (by
    match a with
    | ⟨0, _⟩ => exact lhs_agg_0 _ _
    | ⟨1, _⟩ => exact (lhs_agg_1 _ _).trans hk)
  have er : dot_S400x10000_S10000x128_S400x128_1_0_0_1_n_n.rhsIdx (ix2 p q) ((ValueIdx.contrEquiv1 dot_S400x10000_S10000x128_S400x128_1_0_0_1_n_n 10000 rfl rfl).symm k) = ix2 k q := funext fun a => Fin.ext (by
    match a with
    | ⟨0, _⟩ => exact (rhs_agg_0 _ _).trans hk
    | ⟨1, _⟩ => exact rhs_agg_1 _ _)
  rw [el, er]

/-! ## The projection product, [400, 128] · [128, 128] -/

/-- The left operand's row coordinate is the output's row. -/
theorem lhs_proj_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
/-- The left operand's column coordinate is the contraction coordinate. -/
theorem lhs_proj_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
/-- The right operand's row coordinate is the contraction coordinate. -/
theorem rhs_proj_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
/-- The right operand's column coordinate is the output's column. -/
theorem rhs_proj_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- A [400, 128] · [128, 128] product into the zero accumulator, at row `p`, column `q`: the plain sum over the 128
    contracted coordinates. -/
theorem matmul_proj_apply (l : Vec Ideal S400x128 .f32) (w : Vec Ideal S128x128 .f32) (p : Fin 400) (q : Fin 128) :
    matmul (F := Ideal) (φ₁ := .f32) (φ₂ := .f32) dot_S400x128_S128x128_S400x128_1_0_0_1_n_n none l w (constant S400x128 .f32 0x00000000#32) (ix2 p q)
      = ∑ k : Fin 128, l (ix2 p k) * w (ix2 k q) := by
  refine (Ideal.matmul_constant_zero_apply (φ₁ := .f32) (φ₂ := .f32) dot_S400x128_S128x128_S400x128_1_0_0_1_n_n none l w (ix2 p q)).trans ?_
  rw [← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx (ix2 p q) ((ValueIdx.contrEquiv1 dot_S400x128_S128x128_S400x128_1_0_0_1_n_n 128 rfl rfl).symm k) = ix2 p k := funext fun a => Fin.ext (by
    match a with
    | ⟨0, _⟩ => exact lhs_proj_0 _ _
    | ⟨1, _⟩ => exact (lhs_proj_1 _ _).trans hk)
  have er : dot_S400x128_S128x128_S400x128_1_0_0_1_n_n.rhsIdx (ix2 p q) ((ValueIdx.contrEquiv1 dot_S400x128_S128x128_S400x128_1_0_0_1_n_n 128 rfl rfl).symm k) = ix2 k q := funext fun a => Fin.ext (by
    match a with
    | ⟨0, _⟩ => exact (rhs_proj_0 _ _).trans hk
    | ⟨1, _⟩ => exact rhs_proj_1 _ _)
  rw [el, er]

/-! ## The two payloads -/

/-- The second layer's payload is the first's: its two shape casts are between equal shapes, so each is the identity. -/
theorem k1_pay1_eq_k0_pay1 (a : Vec Ideal S400x10000 .f32) (x : Vec Ideal S10000x128 .f32) (xb : Vec Ideal S400x128 .f32)
    (wlo whi : Vec Ideal S128x128 .f32) :
    k1_pay1 (F := Ideal) a x xb wlo whi = k0_pay1 (F := Ideal) a x xb wlo whi := by
  unfold k1_pay1 k0_pay1
  simp only [shapeCast_self]

/-- The first layer's stored value at row `r`, feature `j` of the block. -/
theorem k0_pay1_apply (a : Vec Ideal S400x10000 .f32) (x : Vec Ideal S10000x128 .f32) (xb : Vec Ideal S400x128 .f32)
    (wlo whi : Vec Ideal S128x128 .f32) (r : Fin 400) (j : Fin 128) :
    k0_pay1 (F := Ideal) a x xb wlo whi (ix2 r j)
      = max ((∑ k : Fin 128, xb (ix2 r k) * wlo (ix2 k j))
          + ∑ k : Fin 128, (∑ l : Fin 10000, a (ix2 r l) * x (ix2 l k)) * whi (ix2 k j))
        (Ideal.ofBits .f32 0x00000000#32) := by
  -- the low half: the block's own rows times the low weights
  have h1 := matmul_proj_apply xb wlo r j
  -- the high half: the aggregated rows times the high weights, the aggregation itself a sum under the sum
  have h2 : matmul (F := Ideal) (φ₁ := .f32) (φ₂ := .f32) dot_S400x128_S128x128_S400x128_1_0_0_1_n_n none (matmul (F := Ideal) (φ₁ := .f32) (φ₂ := .f32) dot_S400x10000_S10000x128_S400x128_1_0_0_1_n_n none a x (constant S400x128 .f32 0x00000000#32)) whi (constant S400x128 .f32 0x00000000#32) (ix2 r j)
      = ∑ k : Fin 128, (∑ l : Fin 10000, a (ix2 r l) * x (ix2 l k)) * whi (ix2 k j) :=
    (matmul_proj_apply _ whi r j).trans
      (Finset.sum_congr rfl fun k _ => congrArg (· * whi (ix2 k j)) (matmul_agg_apply a x r k))
  -- the addition, the zero splat and the maximum read index by index
  unfold k0_pay1
  exact congrArg₂ max (congrArg₂ (· + ·) h1 h2) rfl

/-- The second layer's stored value at row `r`, feature `j` of the block (the same arithmetic: its two shape casts are
    between equal shapes). -/
theorem k1_pay1_apply (a : Vec Ideal S400x10000 .f32) (x : Vec Ideal S10000x128 .f32) (xb : Vec Ideal S400x128 .f32)
    (wlo whi : Vec Ideal S128x128 .f32) (r : Fin 400) (j : Fin 128) :
    k1_pay1 (F := Ideal) a x xb wlo whi (ix2 r j)
      = max ((∑ k : Fin 128, xb (ix2 r k) * wlo (ix2 k j))
          + ∑ k : Fin 128, (∑ l : Fin 10000, a (ix2 r l) * x (ix2 l k)) * whi (ix2 k j))
        (Ideal.ofBits .f32 0x00000000#32) := by
  exact (congrFun (k1_pay1_eq_k0_pay1 a x xb wlo whi) (ix2 r j)).trans (k0_pay1_apply a x xb wlo whi r j)

end Cert.KernelIdeal.LayerValue

end
-- ==== Proof.Spec.lean ====
/-
  What both programs compute, as one function of the argument arrays on the extended reals.

  A layer sends features `x` (10000 × 128), the dense adjacency matrix `adj` (10000 × 10000) and weights `w` (256 × 128) to
  `max (x · w[0:128] + (adj · x) · w[128:256]) 0`, entry by entry; the network is two layers over the same adjacency
  matrix. The reference multiplies the concatenation `[x | adj · x]` (10000 × 256) by the whole of `w`: a sum over 256
  terms that splits, in any commutative monoid, into the sum over the first 128 and the sum over the last 128
  (`sum_halves`). No other law is needed, and this one does not ask the entries to be finite.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- The shapes of the features, the adjacency matrix and a layer's weights. -/
abbrev SX : Shape := ⟨2, ![10000, 128]⟩
abbrev SA : Shape := ⟨2, ![10000, 10000]⟩
abbrev SW : Shape := ⟨2, ![256, 128]⟩

/-- Row `k` of the weights' upper half, and of their lower half. -/
def lo (k : Fin 128) : Fin 256 := ⟨k.val, by omega⟩
def hi (k : Fin 128) : Fin 256 := ⟨128 + k.val, by omega⟩

/-- The neighbourhood sum `(adj · x)` at row `r`, feature `k`. -/
def support (x : SX.Idx → EReal) (adj : SA.Idx → EReal) (r : Fin 10000) (k : Fin 128) : EReal :=
  ∑ l : Fin 10000, adj (ix2 r l) * x (ix2 l k)

/-- One layer at row `r`, output feature `j`. -/
def layerAt (x : SX.Idx → EReal) (adj : SA.Idx → EReal) (w : SW.Idx → EReal) (r : Fin 10000) (j : Fin 128) : EReal :=
  max ((∑ k : Fin 128, x (ix2 r k) * w (ix2 (lo k) j)) + ∑ k : Fin 128, support x adj r k * w (ix2 (hi k) j))
    (Ideal.ofBits .f32 0x00000000#32)

/-- One layer, as an array. -/
def layer (x : SX.Idx → EReal) (adj : SA.Idx → EReal) (w : SW.Idx → EReal) : SX.Idx → EReal :=
  fun i => layerAt x adj w (i 0) (i 1)

theorem layer_apply (x : SX.Idx → EReal) (adj : SA.Idx → EReal) (w : SW.Idx → EReal) (r : Fin 10000) (j : Fin 128) :
    layer x adj w (ix2 r j) = layerAt x adj w r j := rfl

/-- The two layers. -/
def net (x : SX.Idx → EReal) (adj : SA.Idx → EReal) (w1 w2 : SW.Idx → EReal) : SX.Idx → EReal :=
  layer (layer x adj w1) adj w2

/-- A sum over 256 terms is the sum over the first 128 plus the sum over the last 128. -/
theorem sum_halves {M : Type*} [AddCommMonoid M] (f : Fin 256 → M) :
    ∑ k : Fin 256, f k = (∑ k : Fin 128, f (lo k)) + ∑ k : Fin 128, f (hi k) := by
  have h := Fin.sum_univ_add (a := 128) (b := 128) (fun k : Fin (128 + 128) => f k)
  exact h

end Cert.Spec

end
-- ==== Proof.KernelIdeal.Final0.lean ====
/-
  From blocks to the array, first layer: the pipeline writes block `t` of the output (rows `400 t … 400 t + 399`) back at
  point `t`, the 25 blocks tile the 10000 rows, and what point `t` wrote is the layer's value on those rows — the adjacency
  block holds the rows' adjacency rows, the feature block the rows' own features, the two resident windows the whole
  feature matrix and the whole weight matrix. So after the last point the output array holds the layer of the arrays the
  region found.
-/
import proofs.«115573_g60533269070025_cont_9to1_m_1379_3_alg».proof.Proof.KernelIdeal.Region0
import proofs.«115573_g60533269070025_cont_9to1_m_1379_3_alg».proof.Proof.KernelIdeal.Payload
import proofs.«115573_g60533269070025_cont_9to1_m_1379_3_alg».proof.Proof.Spec
import Idealize.ShloMosaic.Lib.Pipeline.Value

set_option maxRecDepth 16384

noncomputable section

namespace Cert.KernelIdeal.LayerValue

open Cert.KernelIdeal Cert.KernelIdeal.Gen Cert.KernelIdeal.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The loads of the body -/

/-- The zero offsets, however spelt. -/
theorem zero_offsets0 : (![0, 0] : Fin 2 → Nat) = fun _ => 0 := funext fun a => by fin_cases a <;> rfl

/-- The load of the weights' upper half reads rows `0 … 127` of the weight matrix. -/
theorem ld_upper0 (w : Vec Ideal S256x128 .f32) (k j : Fin 128) :
    View.ld w rWlo0 (ix2 k j) = w (ix2 (Cert.Spec.lo k) j) := by
  show w (rWlo0.idx (ix2 k j)) = w (ix2 (Cert.Spec.lo k) j)
  congr 1
  funext a
  apply Fin.ext
  match a with
  | ⟨0, _⟩ => show 0 + 1 * k.val = k.val; omega
  | ⟨1, _⟩ => show 0 + 1 * j.val = j.val; omega

/-- The load of the weights' lower half reads rows `128 … 255` of the weight matrix. -/
theorem ld_lower0 (w : Vec Ideal S256x128 .f32) (k j : Fin 128) :
    View.ld w rWhi0 (ix2 k j) = w (ix2 (Cert.Spec.hi k) j) := by
  show w (rWhi0.idx (ix2 k j)) = w (ix2 (Cert.Spec.hi k) j)
  congr 1
  funext a
  apply Fin.ext
  match a with
  | ⟨0, _⟩ => show 128 + 1 * k.val = 128 + k.val; omega
  | ⟨1, _⟩ => show 0 + 1 * j.val = j.val; omega

/-- What the body leaves in the output's buffer, at row `r`, feature `j` of the block: the layer's arithmetic on the
    four input blocks, the two halves of the weights read off the whole weight matrix. -/
theorem out0_apply (a : Vec Ideal S400x10000 .f32) (x : Vec Ideal S10000x128 .f32) (xb : Vec Ideal S400x128 .f32)
    (w : Vec Ideal S256x128 .f32) (r : Fin 400) (j : Fin 128) :
    out0 (F := Ideal) a x xb w (ix2 r j)
      = max ((∑ k : Fin 128, xb (ix2 r k) * w (ix2 (Cert.Spec.lo k) j))
          + ∑ k : Fin 128, (∑ l : Fin 10000, a (ix2 r l) * x (ix2 l k)) * w (ix2 (Cert.Spec.hi k) j))
        (Ideal.ofBits .f32 0x00000000#32) := by
  unfold out0
  rw [View.canon_unit_zero zero_offsets0]
  simp only [View.ld_unit_zero (S := S400x10000) zero_offsets0, View.ld_unit_zero (S := S10000x128) zero_offsets0,
    View.ld_unit_zero (S := S400x128) zero_offsets0]
  refine (k0_pay1_apply a x xb (View.ld w rWlo0) (View.ld w rWhi0) r j).trans ?_
  refine congrArg₂ max (congrArg₂ (· + ·) ?_ ?_) rfl
  · exact Finset.sum_congr rfl fun k _ => congrArg (xb (ix2 r k) * ·) (ld_upper0 w k j)
  · exact Finset.sum_congr rfl fun k _ =>
      congrArg ((∑ l : Fin 10000, a (ix2 r l) * x (ix2 l k)) * ·) (ld_lower0 w k j)

/-! ## The windows' blocks, read off the arrays -/

/-- The index maps over the grid: the adjacency rows, the feature rows and the output move with the point along the
    rows; the two resident windows stay at the origin. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The adjacency block at point `t` is rows `400 t … 400 t + 399` of the adjacency matrix. -/
theorem adj_block0 (c : Dev nD) (t : Fin cfg0.N) (y : S400x10000.Idx) (i : S10000x10000.Idx)
    (h0 : (i 0).val = 400 * t.val + (y 0).val) (h1 : (i 1).val = (y 1).val) :
    (iblk0 (F := Ideal) V c 0 t : Vec Ideal S400x10000 .f32) y = (V c main_arg1 : S10000x10000.Idx → EReal) i := by
  obtain ⟨e00, e01, -⟩ := index_facts0 t
  unfold iblk0
  rw [View.read_apply]
  show V c main_arg1 _ = V c main_arg1 _
  congr 1
  funext a
  apply Fin.ext
  match a with
  | ⟨0, _⟩ => show win0_0.index t (0 : Fin 2) * 400 + 1 * (y 0).val = (i 0).val; rw [e00, h0]; omega
  | ⟨1, _⟩ => show win0_0.index t (1 : Fin 2) * 10000 + 1 * (y 1).val = (i 1).val; rw [e01, h1]; omega

/-- The resident feature window holds the whole feature matrix at every point. -/
theorem feat_whole0 (c : Dev nD) (t : Fin cfg0.N) (y : S10000x128.Idx) :
    (iblk0 (F := Ideal) V c 1 t : Vec Ideal S10000x128 .f32) y = (V c main_arg0 : S10000x128.Idx → EReal) y := by
  obtain ⟨-, -, e10, e11, -⟩ := index_facts0 t
  unfold iblk0
  rw [View.read_apply]
  show V c main_arg0 _ = V c main_arg0 _
  congr 1
  funext a
  apply Fin.ext
  match a with
  | ⟨0, _⟩ => show win0_1.index t (0 : Fin 2) * 10000 + 1 * (y 0).val = (y 0).val; rw [e10]; omega
  | ⟨1, _⟩ => show win0_1.index t (1 : Fin 2) * 128 + 1 * (y 1).val = (y 1).val; rw [e11]; omega

/-- The feature block at point `t` is rows `400 t … 400 t + 399` of the feature matrix. -/
theorem feat_block0 (c : Dev nD) (t : Fin cfg0.N) (y : S400x128.Idx) (i : S10000x128.Idx)
    (h0 : (i 0).val = 400 * t.val + (y 0).val) (h1 : (i 1).val = (y 1).val) :
    (iblk0 (F := Ideal) V c 2 t : Vec Ideal S400x128 .f32) y = (V c main_arg0 : S10000x128.Idx → EReal) i := by
  obtain ⟨-, -, -, -, e20, e21, -⟩ := index_facts0 t
  unfold iblk0
  rw [View.read_apply]
  show V c main_arg0 _ = V c main_arg0 _
  congr 1
  funext a
  apply Fin.ext
  match a with
  | ⟨0, _⟩ => show win0_2.index t (0 : Fin 2) * 400 + 1 * (y 0).val = (i 0).val; rw [e20, h0]; omega
  | ⟨1, _⟩ => show win0_2.index t (1 : Fin 2) * 128 + 1 * (y 1).val = (i 1).val; rw [e21, h1]; omega

/-- The resident weight window holds the whole weight matrix at every point. -/
theorem weights_whole0 (c : Dev nD) (t : Fin cfg0.N) (y : S256x128.Idx) :
    (iblk0 (F := Ideal) V c 3 t : Vec Ideal S256x128 .f32) y = (V c main_arg2 : S256x128.Idx → EReal) y := by
  obtain ⟨-, -, -, -, -, -, e30, e31, -⟩ := index_facts0 t
  unfold iblk0
  rw [View.read_apply]
  show V c main_arg2 _ = V c main_arg2 _
  congr 1
  funext a
  apply Fin.ext
  match a with
  | ⟨0, _⟩ => show win0_3.index t (0 : Fin 2) * 256 + 1 * (y 0).val = (y 0).val; rw [e30]; omega
  | ⟨1, _⟩ => show win0_3.index t (1 : Fin 2) * 128 + 1 * (y 1).val = (y 1).val; rw [e31]; omega

/-! ## What a point writes back -/

/-- What the body leaves at an index of the output's buffer at point `t` is the layer of the arrays at the index's row
    `400 t + ` (its row in the block) and the same feature. -/
theorem block_eq0 (c : Dev nD) (t : Fin cfg0.N) (y : S400x128.Idx) (i : S10000x128.Idx)
    (h0 : (i 0).val = 400 * t.val + (y 0).val) (h1 : (i 1).val = (y 1).val) :
    out0 (F := Ideal) (iblk0 V c 0 t) (iblk0 V c 1 t) (iblk0 V c 2 t) (iblk0 V c 3 t) y
      = Cert.Spec.layer (V c main_arg0) (V c main_arg1) (V c main_arg2) i := by
  obtain ⟨r, j, rfl⟩ : ∃ (r : Fin 400) (j : Fin 128), y = ix2 r j := ⟨y 0, y 1, eq_ix2 y⟩
  obtain ⟨R, J, rfl⟩ : ∃ (R : Fin 10000) (J : Fin 128), i = ix2 R J := ⟨i 0, i 1, eq_ix2 i⟩
  have hR : R.val = 400 * t.val + r.val := h0
  have hJ : J = j := Fin.ext h1
  subst hJ
  rw [Cert.Spec.layer_apply]
  unfold Cert.Spec.layerAt Cert.Spec.support
  refine (out0_apply (iblk0 (F := Ideal) V c 0 t) (iblk0 (F := Ideal) V c 1 t) (iblk0 (F := Ideal) V c 2 t)
    (iblk0 (F := Ideal) V c 3 t) r J).trans ?_
  refine congrArg₂ max (congrArg₂ (· + ·) ?_ ?_) rfl
  · refine Finset.sum_congr rfl fun k _ => ?_
    rw [feat_block0 V c t (ix2 r k) (ix2 R k) hR rfl, weights_whole0 V c t (ix2 (Cert.Spec.lo k) J)]
  · refine Finset.sum_congr rfl fun k _ => ?_
    rw [weights_whole0 V c t (ix2 (Cert.Spec.hi k) J)]
    refine congrArg (· * _) (Finset.sum_congr rfl fun l _ => ?_)
    rw [adj_block0 V c t (ix2 r l) (ix2 R l) hR rfl, feat_whole0 V c t (ix2 l k)]

/-- What point `t` writes back is block `t` of the layer of the arrays the region found. -/
theorem flushed_eq0 (c : Dev nD) (t : Fin cfg0.N) :
    (dat0 (F := Ideal) V c).flushed 4 t
      = ((cfg0.win 4).blk t).view.read (Elt Ideal) (Cert.Spec.layer (V c main_arg0) (V c main_arg1) (V c main_arg2)) := by
  show (cfg0.win 4).cut (grid0.coords t) ((dat0 V c).after 4 t) = _
  rw [after0_4]
  obtain ⟨-, -, -, -, -, -, -, -, e40, e41⟩ := index_facts0 t
  funext y
  refine block_eq0 V c t y (((cfg0.win 4).blk t).view.emb y) ?_ ?_
  · show win0_4.index t (0 : Fin 2) * 400 + 1 * (y 0).val = 400 * t.val + (y 0).val
    rw [e40]; omega
  · show win0_4.index t (1 : Fin 2) * 128 + 1 * (y 1).val = (y 1).val
    rw [e41]; omega

/-! ## The blocks tile the array -/

/-- An index of the array is in point `t`'s block iff each coordinate is in the block's range on its axis. -/
theorem mem_blk0 (t : Fin cfg0.N) (i : S10000x128.Idx) :
    i ∈ ((cfg0.win 4).blk t).view.set ↔ ∀ a : Fin 2, win0_4.index t a * S400x128.size a ≤ (i a).val
      ∧ (i a).val < win0_4.index t a * S400x128.size a + S400x128.size a := by
  show i ∈ ((View.whole main_call0_v0).slice (win0_4.rect t)).set ↔ _
  rw [View.set_slice_whole, Rect.mem_set_unit]
  exact Iff.rfl

/-- Every row of the array is in the block of the point `row / 400`. -/
theorem rows_covered0 (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  have hlt : (i 0).val / 400 < 25 := by omega
  obtain ⟨t, ht⟩ : ∃ t : Fin cfg0.N, t.val = (i 0).val / 400 := ⟨⟨(i 0).val / 400, hlt⟩, rfl⟩
  obtain ⟨-, -, -, -, -, -, -, -, e40, e41⟩ := index_facts0 t
  refine ⟨t, flush0_4 t, ?_⟩
  rw [mem_blk0]
  intro a
  match a with
  | ⟨0, _⟩ =>
    show win0_4.index t (0 : Fin 2) * 400 ≤ (i 0).val ∧ (i 0).val < win0_4.index t (0 : Fin 2) * 400 + 400
    rw [e40, ht]; omega
  | ⟨1, _⟩ =>
    show win0_4.index t (1 : Fin 2) * 128 ≤ (i 1).val ∧ (i 1).val < win0_4.index t (1 : Fin 2) * 128 + 128
    rw [e41]; omega

/-! ## The array after the last point -/

/-- After the last point the first layer's output array holds the layer of the arrays the region found. -/
theorem final0 (c : Dev nD) :
    (dat0 (F := Ideal) V c).arrAt 4 cfg0.N = Cert.Spec.layer (V c main_arg0) (V c main_arg1) (V c main_arg2) := by
  exact (dat0 (F := Ideal) V c).arrAt_eq_of_cover 4 (Cert.Spec.layer (V c main_arg0) (V c main_arg1) (V c main_arg2))
    (fun t _ => flushed_eq0 V c t) rows_covered0

end Cert.KernelIdeal.LayerValue

end
-- ==== Proof.KernelIdeal.Final1.lean ====
/-
  From blocks to the array, second layer: the pipeline writes block `t` of the output (rows `400 t … 400 t + 399`) back at
  point `t`, the 25 blocks tile the 10000 rows, and what point `t` wrote is the layer's value on those rows — the adjacency
  block holds the rows' adjacency rows, the feature block the rows' own features (here: the first layer's result), the two resident windows the whole
  of that result and the whole second weight matrix. So after the last point the output array holds the layer of the arrays the
  region found.
-/
import proofs.«115573_g60533269070025_cont_9to1_m_1379_3_alg».proof.Proof.KernelIdeal.Region1
import proofs.«115573_g60533269070025_cont_9to1_m_1379_3_alg».proof.Proof.KernelIdeal.Payload
import proofs.«115573_g60533269070025_cont_9to1_m_1379_3_alg».proof.Proof.Spec
import Idealize.ShloMosaic.Lib.Pipeline.Value

set_option maxRecDepth 16384

noncomputable section

namespace Cert.KernelIdeal.LayerValue

open Cert.KernelIdeal Cert.KernelIdeal.Gen Cert.KernelIdeal.Layer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The loads of the body -/

/-- The zero offsets, however spelt. -/
theorem zero_offsets1 : (![0, 0] : Fin 2 → Nat) = fun _ => 0 := funext fun a => by fin_cases a <;> rfl

/-- The load of the weights' upper half reads rows `0 … 127` of the second weight matrix. -/
theorem ld_upper1 (w : Vec Ideal S256x128 .f32) (k j : Fin 128) :
    View.ld w rWlo1 (ix2 k j) = w (ix2 (Cert.Spec.lo k) j) := by
  show w (rWlo1.idx (ix2 k j)) = w (ix2 (Cert.Spec.lo k) j)
  congr 1
  funext a
  apply Fin.ext
  match a with
  | ⟨0, _⟩ => show 0 + 1 * k.val = k.val; omega
  | ⟨1, _⟩ => show 0 + 1 * j.val = j.val; omega

/-- The load of the weights' lower half reads rows `128 … 255` of the second weight matrix. -/
theorem ld_lower1 (w : Vec Ideal S256x128 .f32) (k j : Fin 128) :
    View.ld w rWhi1 (ix2 k j) = w (ix2 (Cert.Spec.hi k) j) := by
  show w (rWhi1.idx (ix2 k j)) = w (ix2 (Cert.Spec.hi k) j)
  congr 1
  funext a
  apply Fin.ext
  match a with
  | ⟨0, _⟩ => show 128 + 1 * k.val = 128 + k.val; omega
  | ⟨1, _⟩ => show 0 + 1 * j.val = j.val; omega

/-- What the body leaves in the output's buffer, at row `r`, feature `j` of the block: the layer's arithmetic on the
    four input blocks, the two halves of the weights read off the whole weight matrix. -/
theorem out1_apply (a : Vec Ideal S400x10000 .f32) (x : Vec Ideal S10000x128 .f32) (xb : Vec Ideal S400x128 .f32)
    (w : Vec Ideal S256x128 .f32) (r : Fin 400) (j : Fin 128) :
    out1 (F := Ideal) a x xb w (ix2 r j)
      = max ((∑ k : Fin 128, xb (ix2 r k) * w (ix2 (Cert.Spec.lo k) j))
          + ∑ k : Fin 128, (∑ l : Fin 10000, a (ix2 r l) * x (ix2 l k)) * w (ix2 (Cert.Spec.hi k) j))
        (Ideal.ofBits .f32 0x00000000#32) := by
  unfold out1
  rw [View.canon_unit_zero zero_offsets1]
  simp only [View.ld_unit_zero (S := S400x10000) zero_offsets1, View.ld_unit_zero (S := S10000x128) zero_offsets1,
    View.ld_unit_zero (S := S400x128) zero_offsets1]
  refine (k1_pay1_apply a x xb (View.ld w rWlo1) (View.ld w rWhi1) r j).trans ?_
  refine congrArg₂ max (congrArg₂ (· + ·) ?_ ?_) rfl
  · exact Finset.sum_congr rfl fun k _ => congrArg (xb (ix2 r k) * ·) (ld_upper1 w k j)
  · exact Finset.sum_congr rfl fun k _ =>
      congrArg ((∑ l : Fin 10000, a (ix2 r l) * x (ix2 l k)) * ·) (ld_lower1 w k j)

/-! ## The windows' blocks, read off the arrays -/

/-- The index maps over the grid: the adjacency rows, the feature rows and the output move with the point along the
    rows; the two resident windows stay at the origin. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The adjacency block at point `t` is rows `400 t … 400 t + 399` of the adjacency matrix. -/
theorem adj_block1 (c : Dev nD) (t : Fin cfg1.N) (y : S400x10000.Idx) (i : S10000x10000.Idx)
    (h0 : (i 0).val = 400 * t.val + (y 0).val) (h1 : (i 1).val = (y 1).val) :
    (iblk1 (F := Ideal) V c 0 t : Vec Ideal S400x10000 .f32) y = (V c main_arg1 : S10000x10000.Idx → EReal) i := by
  obtain ⟨e00, e01, -⟩ := index_facts1 t
  unfold iblk1
  rw [View.read_apply]
  show V c main_arg1 _ = V c main_arg1 _
  congr 1
  funext a
  apply Fin.ext
  match a with
  | ⟨0, _⟩ => show win1_0.index t (0 : Fin 2) * 400 + 1 * (y 0).val = (i 0).val; rw [e00, h0]; omega
  | ⟨1, _⟩ => show win1_0.index t (1 : Fin 2) * 10000 + 1 * (y 1).val = (i 1).val; rw [e01, h1]; omega

/-- The resident feature window holds the whole of the first layer's result at every point. -/
theorem feat_whole1 (c : Dev nD) (t : Fin cfg1.N) (y : S10000x128.Idx) :
    (iblk1 (F := Ideal) V c 1 t : Vec Ideal S10000x128 .f32) y = (V c main_call0_v0 : S10000x128.Idx → EReal) y := by
  obtain ⟨-, -, e10, e11, -⟩ := index_facts1 t
  unfold iblk1
  rw [View.read_apply]
  show V c main_call0_v0 _ = V c main_call0_v0 _
  congr 1
  funext a
  apply Fin.ext
  match a with
  | ⟨0, _⟩ => show win1_1.index t (0 : Fin 2) * 10000 + 1 * (y 0).val = (y 0).val; rw [e10]; omega
  | ⟨1, _⟩ => show win1_1.index t (1 : Fin 2) * 128 + 1 * (y 1).val = (y 1).val; rw [e11]; omega

/-- The feature block at point `t` is rows `400 t … 400 t + 399` of the first layer's result. -/
theorem feat_block1 (c : Dev nD) (t : Fin cfg1.N) (y : S400x128.Idx) (i : S10000x128.Idx)
    (h0 : (i 0).val = 400 * t.val + (y 0).val) (h1 : (i 1).val = (y 1).val) :
    (iblk1 (F := Ideal) V c 2 t : Vec Ideal S400x128 .f32) y = (V c main_call0_v0 : S10000x128.Idx → EReal) i := by
  obtain ⟨-, -, -, -, e20, e21, -⟩ := index_facts1 t
  unfold iblk1
  rw [View.read_apply]
  show V c main_call0_v0 _ = V c main_call0_v0 _
  congr 1
  funext a
  apply Fin.ext
  match a with
  | ⟨0, _⟩ => show win1_2.index t (0 : Fin 2) * 400 + 1 * (y 0).val = (i 0).val; rw [e20, h0]; omega
  | ⟨1, _⟩ => show win1_2.index t (1 : Fin 2) * 128 + 1 * (y 1).val = (i 1).val; rw [e21, h1]; omega

/-- The resident weight window holds the whole second weight matrix at every point. -/
theorem weights_whole1 (c : Dev nD) (t : Fin cfg1.N) (y : S256x128.Idx) :
    (iblk1 (F := Ideal) V c 3 t : Vec Ideal S256x128 .f32) y = (V c main_arg3 : S256x128.Idx → EReal) y := by
  obtain ⟨-, -, -, -, -, -, e30, e31, -⟩ := index_facts1 t
  unfold iblk1
  rw [View.read_apply]
  show V c main_arg3 _ = V c main_arg3 _
  congr 1
  funext a
  apply Fin.ext
  match a with
  | ⟨0, _⟩ => show win1_3.index t (0 : Fin 2) * 256 + 1 * (y 0).val = (y 0).val; rw [e30]; omega
  | ⟨1, _⟩ => show win1_3.index t (1 : Fin 2) * 128 + 1 * (y 1).val = (y 1).val; rw [e31]; omega

/-! ## What a point writes back -/

/-- What the body leaves at an index of the output's buffer at point `t` is the layer of the arrays at the index's row
    `400 t + ` (its row in the block) and the same feature. -/
theorem block_eq1 (c : Dev nD) (t : Fin cfg1.N) (y : S400x128.Idx) (i : S10000x128.Idx)
    (h0 : (i 0).val = 400 * t.val + (y 0).val) (h1 : (i 1).val = (y 1).val) :
    out1 (F := Ideal) (iblk1 V c 0 t) (iblk1 V c 1 t) (iblk1 V c 2 t) (iblk1 V c 3 t) y
      = Cert.Spec.layer (V c main_call0_v0) (V c main_arg1) (V c main_arg3) i := by
  obtain ⟨r, j, rfl⟩ : ∃ (r : Fin 400) (j : Fin 128), y = ix2 r j := ⟨y 0, y 1, eq_ix2 y⟩
  obtain ⟨R, J, rfl⟩ : ∃ (R : Fin 10000) (J : Fin 128), i = ix2 R J := ⟨i 0, i 1, eq_ix2 i⟩
  have hR : R.val = 400 * t.val + r.val := h0
  have hJ : J = j := Fin.ext h1
  subst hJ
  rw [Cert.Spec.layer_apply]
  unfold Cert.Spec.layerAt Cert.Spec.support
  refine (out1_apply (iblk1 (F := Ideal) V c 0 t) (iblk1 (F := Ideal) V c 1 t) (iblk1 (F := Ideal) V c 2 t)
    (iblk1 (F := Ideal) V c 3 t) r J).trans ?_
  refine congrArg₂ max (congrArg₂ (· + ·) ?_ ?_) rfl
  · refine Finset.sum_congr rfl fun k _ => ?_
    rw [feat_block1 V c t (ix2 r k) (ix2 R k) hR rfl, weights_whole1 V c t (ix2 (Cert.Spec.lo k) J)]
  · refine Finset.sum_congr rfl fun k _ => ?_
    rw [weights_whole1 V c t (ix2 (Cert.Spec.hi k) J)]
    refine congrArg (· * _) (Finset.sum_congr rfl fun l _ => ?_)
    rw [adj_block1 V c t (ix2 r l) (ix2 R l) hR rfl, feat_whole1 V c t (ix2 l k)]

/-- What point `t` writes back is block `t` of the layer of the arrays the region found. -/
theorem flushed_eq1 (c : Dev nD) (t : Fin cfg1.N) :
    (dat1 (F := Ideal) V c).flushed 4 t
      = ((cfg1.win 4).blk t).view.read (Elt Ideal) (Cert.Spec.layer (V c main_call0_v0) (V c main_arg1) (V c main_arg3)) := by
  show (cfg1.win 4).cut (grid1.coords t) ((dat1 V c).after 4 t) = _
  rw [after1_4]
  obtain ⟨-, -, -, -, -, -, -, -, e40, e41⟩ := index_facts1 t
  funext y
  refine block_eq1 V c t y (((cfg1.win 4).blk t).view.emb y) ?_ ?_
  · show win1_4.index t (0 : Fin 2) * 400 + 1 * (y 0).val = 400 * t.val + (y 0).val
    rw [e40]; omega
  · show win1_4.index t (1 : Fin 2) * 128 + 1 * (y 1).val = (y 1).val
    rw [e41]; omega

/-! ## The blocks tile the array -/

/-- An index of the array is in point `t`'s block iff each coordinate is in the block's range on its axis. -/
theorem mem_blk1 (t : Fin cfg1.N) (i : S10000x128.Idx) :
    i ∈ ((cfg1.win 4).blk t).view.set ↔ ∀ a : Fin 2, win1_4.index t a * S400x128.size a ≤ (i a).val
      ∧ (i a).val < win1_4.index t a * S400x128.size a + S400x128.size a := by
  show i ∈ ((View.whole main_v0).slice (win1_4.rect t)).set ↔ _
  rw [View.set_slice_whole, Rect.mem_set_unit]
  exact Iff.rfl

/-- Every row of the array is in the block of the point `row / 400`. -/
theorem rows_covered1 (i : S10000x128.Idx) :
    ∃ t : Fin cfg1.N, (cfg1.win 4).flush t = true ∧ i ∈ ((cfg1.win 4).blk t).view.set := by
  have hi0 : (i 0).val < 10000 := (i 0).isLt
  have hi1 : (i 1).val < 128 := (i 1).isLt
  have hlt : (i 0).val / 400 < 25 := by omega
  obtain ⟨t, ht⟩ : ∃ t : Fin cfg1.N, t.val = (i 0).val / 400 := ⟨⟨(i 0).val / 400, hlt⟩, rfl⟩
  obtain ⟨-, -, -, -, -, -, -, -, e40, e41⟩ := index_facts1 t
  refine ⟨t, flush1_4 t, ?_⟩
  rw [mem_blk1]
  intro a
  match a with
  | ⟨0, _⟩ =>
    show win1_4.index t (0 : Fin 2) * 400 ≤ (i 0).val ∧ (i 0).val < win1_4.index t (0 : Fin 2) * 400 + 400
    rw [e40, ht]; omega
  | ⟨1, _⟩ =>
    show win1_4.index t (1 : Fin 2) * 128 ≤ (i 1).val ∧ (i 1).val < win1_4.index t (1 : Fin 2) * 128 + 128
    rw [e41]; omega

/-! ## The array after the last point -/

/-- After the last point the second layer's output array holds the layer of the arrays the region found. -/
theorem final1 (c : Dev nD) :
    (dat1 (F := Ideal) V c).arrAt 4 cfg1.N = Cert.Spec.layer (V c main_call0_v0) (V c main_arg1) (V c main_arg3) := by
  exact (dat1 (F := Ideal) V c).arrAt_eq_of_cover 4 (Cert.Spec.layer (V c main_call0_v0) (V c main_arg1) (V c main_arg3))
    (fun t _ => flushed_eq1 V c t) rows_covered1

end Cert.KernelIdeal.LayerValue

end
-- ==== Proof.KernelIdeal.Result.lean ====
/-
  The idealized kernel's result as a function of the arguments: the second region's output array holds the layer of what
  it found — the first layer's result, the adjacency matrix, the second weight matrix —, and the first layer's result is
  the layer of the features, the adjacency matrix and the first weight matrix as launched (no item writes an argument).
-/
import proofs.«115573_g60533269070025_cont_9to1_m_1379_3_alg».proof.Proof.KernelIdeal.Run
import proofs.«115573_g60533269070025_cont_9to1_m_1379_3_alg».proof.Proof.KernelIdeal.Final0
import proofs.«115573_g60533269070025_cont_9to1_m_1379_3_alg».proof.Proof.KernelIdeal.Final1

set_option maxRecDepth 16384

noncomputable section

namespace Cert.KernelIdeal.LayerValue

open Cert.KernelIdeal Cert.KernelIdeal.Gen Cert.KernelIdeal.Layer
open Idealize.ShloMosaic Idealize.ShloMosaic.TcCoe Idealize.SL.Sem

/-- The program's result array ends holding the two layers of the launch arguments. -/
theorem result_eq (m : (ℓ : Loc nD τ sig) → Buf (Elt Ideal) ℓ) (c : Dev nD) :
    res1 (F := Ideal) m c
      = Cert.Spec.net (m ((c : Thread nD τ).loc main_arg0)) (m ((c : Thread nD τ).loc main_arg1))
          (m ((c : Thread nD τ).loc main_arg2)) (m ((c : Thread nD τ).loc main_arg3)) := by
  unfold res1
  rw [final1 (V1 m) c, V1_out, V1_of_ne m c main_arg1 (by decide), V1_of_ne m c main_arg3 (by decide)]
  unfold res0
  rw [final0 (V0 m) c]
  rfl

end Cert.KernelIdeal.LayerValue

end
-- ==== Proof.RefValue.lean ====
/-
  The reference's result, read one operation at a time, is the two layers of `Spec`: each layer's product of the
  concatenation `[y | adj · y]` with the whole weight matrix is a sum over 256 terms, the first 128 reading `y` and the last
  128 reading `adj · y` (`Spec.sum_halves`); the maximum with the broadcast zero is the layer's.
-/
import proofs.«115573_g60533269070025_cont_9to1_m_1379_3_alg».proof.Proof.Gen.ReferenceIdeal.Read
import proofs.«115573_g60533269070025_cont_9to1_m_1379_3_alg».proof.Proof.Spec

noncomputable section

namespace Cert.RefValue

open Cert.ReferenceIdeal Cert.ReferenceIdeal.Gen Cert.ReferenceIdeal.Read
open Idealize.ShloMosaic Idealize.ShloMosaic.ValueIdx

/-- Column `k < 128` of the concatenation `[y | adj · y]` is column `k` of `y`. -/
theorem concat_lo (y : (⟨S10000x128, .f32⟩ : BufTy).Contents (Elt Ideal)) (adj : (⟨S10000x10000, .f32⟩ : BufTy).Contents (Elt Ideal))
    (r : Fin 10000) (j k : Fin 128) :
    val_main_v1 (F := Ideal) y adj (lidx_main_v2 (ix2 r j) (Cert.Spec.lo k)) = y (ix2 r k) := by
  unfold val_main_v1
  exact concatenate_pair_apply_left 1 y _ concatenates_S10000x128_S10000x128_S10000x256_d1 _ rfl (ix2 r k)
    (fun b => by match b with
      | ⟨0, _⟩ => rfl
      | ⟨1, _⟩ => rfl)

/-- Column `128 + k` of the concatenation `[y | adj · y]` is column `k` of `adj · y`. -/
theorem concat_hi (y : (⟨S10000x128, .f32⟩ : BufTy).Contents (Elt Ideal)) (adj : (⟨S10000x10000, .f32⟩ : BufTy).Contents (Elt Ideal))
    (r : Fin 10000) (j k : Fin 128) :
    val_main_v1 (F := Ideal) y adj (lidx_main_v2 (ix2 r j) (Cert.Spec.hi k)) = val_main_v0 (F := Ideal) y adj (ix2 r k) := by
  unfold val_main_v1
  exact concatenate_pair_apply_right 1 y _ concatenates_S10000x128_S10000x128_S10000x256_d1 _ rfl rfl (ix2 r k)
    (fun b hb => by match b with
      | ⟨0, _⟩ => rfl
      | ⟨1, _⟩ => exact absurd rfl hb)
    (by show k.val + 128 = 128 + k.val; omega)

/-- The product `adj · y` at row `r`, column `k` is the neighbourhood sum. -/
theorem adj_mul (y : (⟨S10000x128, .f32⟩ : BufTy).Contents (Elt Ideal)) (adj : (⟨S10000x10000, .f32⟩ : BufTy).Contents (Elt Ideal))
    (r : Fin 10000) (k : Fin 128) :
    val_main_v0 (F := Ideal) y adj (ix2 r k) = Cert.Spec.support y adj r k := by
  rw [val_main_v0_apply]
  unfold Cert.Spec.support
  refine Finset.sum_congr rfl fun l _ => ?_
  have el : lidx_main_v0 (ix2 r k) l = ix2 r l := funext fun a => by
    match a with
    | ⟨0, _⟩ => rfl
    | ⟨1, _⟩ => rfl
  have er : ridx_main_v0 (ix2 r k) l = ix2 l k := funext fun a => by
    match a with
    | ⟨0, _⟩ => rfl
    | ⟨1, _⟩ => rfl
  rw [el, er]

/-- Row `c` of the weights, column `j`, as the product over 256 reads it. -/
theorem weight_idx (r : Fin 10000) (j : Fin 128) (c : Fin 256) : ridx_main_v2 (ix2 r j) c = ix2 c j := funext fun a => by
  match a with
  | ⟨0, _⟩ => rfl
  | ⟨1, _⟩ => rfl

/-- One layer of the reference, over any features `y`: the maximum with zero of `[y | adj · y] · w`. -/
theorem layer_eq (y : (⟨S10000x128, .f32⟩ : BufTy).Contents (Elt Ideal)) (adj : (⟨S10000x10000, .f32⟩ : BufTy).Contents (Elt Ideal))
    (w : (⟨S256x128, .f32⟩ : BufTy).Contents (Elt Ideal)) :
    val_main_v3 (F := Ideal) y adj w = Cert.Spec.layer y adj w := by
  funext i
  obtain ⟨r, j, rfl⟩ : ∃ (r : Fin 10000) (j : Fin 128), i = ix2 r j := ⟨i 0, i 1, eq_ix2 i⟩
  rw [val_main_v3_apply, val_main_v2_apply, val_main_call0_v0_apply, val_main_call0_cst_apply, Cert.Spec.layer_apply,
    Cert.Spec.sum_halves]
  unfold Cert.Spec.layerAt
  refine congrArg₂ max (congrArg₂ (· + ·) ?_ ?_) rfl
  · refine Finset.sum_congr rfl fun k _ => ?_
    rw [concat_lo, weight_idx]
  · refine Finset.sum_congr rfl fun k _ => ?_
    rw [concat_hi, adj_mul, weight_idx]

/-- The second layer of the reference is the first layer's operations over the first layer's result. -/
theorem second_layer (x0 : (⟨S10000x128, .f32⟩ : BufTy).Contents (Elt Ideal)) (x1 : (⟨S10000x10000, .f32⟩ : BufTy).Contents (Elt Ideal))
    (x2 x3 : (⟨S256x128, .f32⟩ : BufTy).Contents (Elt Ideal)) :
    val_main_v7 (F := Ideal) x0 x1 x2 x3 = val_main_v3 (F := Ideal) (val_main_v3 (F := Ideal) x0 x1 x2) x1 x3 := rfl

/-- The reference's result is the two layers. -/
theorem ref_eq (x0 : (⟨S10000x128, .f32⟩ : BufTy).Contents (Elt Ideal)) (x1 : (⟨S10000x10000, .f32⟩ : BufTy).Contents (Elt Ideal))
    (x2 x3 : (⟨S256x128, .f32⟩ : BufTy).Contents (Elt Ideal)) :
    val_main_v7 (F := Ideal) x0 x1 x2 x3 = Cert.Spec.net x0 x1 x2 x3 := by
  rw [second_layer, layer_eq, layer_eq]
  rfl

end Cert.RefValue

end
-- ==== Proof.lean ====
/-
  Two GraphSAGE layers over one dense adjacency matrix: `out = relu([h | adj · h] · W)`, applied to the features with the first
  weight matrix and then to the result with the second.

  The kernel runs each layer as one pipelined region over 25 blocks of 400 rows: a point multiplies its 400 adjacency rows by
  the whole (resident) feature matrix, then forms `rows · W[0:128] + (adj rows · features) · W[128:256]` and takes the maximum
  with zero. The reference forms the concatenation `[h | adj · h]` and multiplies it by the whole of `W`. On the extended
  reals the two are one function: a sum over the 256 columns of the concatenation is the sum over its first 128 columns
  plus the sum over its last 128 (addition of extended reals is commutative and associative; nothing asks the entries to be
  finite, so the precondition is never opened). A matrix product into a zero accumulator and the host's product are the
  same plain sum, and both programs take the maximum with the same zero word.

  The frames: each program's @main is the first layer's region followed by the second's; between them the core holds
  every unscoped buffer whole. In each region two windows read ONE array (the layer's input, whole and by row blocks), so
  at the region's entry that array's share is dealt to them in halves and put together again at the exit. The run's post
  names every unscoped buffer's final contents; the arguments are never written.
-/
import proofs.«115573_g60533269070025_cont_9to1_m_1379_3_alg».proof.Defs
import proofs.«115573_g60533269070025_cont_9to1_m_1379_3_alg».proof.Proof.Gen.Kernel
import proofs.«115573_g60533269070025_cont_9to1_m_1379_3_alg».proof.Proof.Gen.KernelIdeal
import proofs.«115573_g60533269070025_cont_9to1_m_1379_3_alg».proof.Proof.Gen.ReferenceIdeal
import proofs.«115573_g60533269070025_cont_9to1_m_1379_3_alg».proof.Proof.Gen.Pre_finite_inputs
import proofs.«115573_g60533269070025_cont_9to1_m_1379_3_alg».proof.Proof.Gen.ReferenceIdeal.Run
import proofs.«115573_g60533269070025_cont_9to1_m_1379_3_alg».proof.Proof.Gen.ReferenceIdeal.Read
import proofs.«115573_g60533269070025_cont_9to1_m_1379_3_alg».proof.Proof.Kernel.Run
import proofs.«115573_g60533269070025_cont_9to1_m_1379_3_alg».proof.Proof.KernelIdeal.Run
import proofs.«115573_g60533269070025_cont_9to1_m_1379_3_alg».proof.Proof.KernelIdeal.Result
import proofs.«115573_g60533269070025_cont_9to1_m_1379_3_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Layer.frame (F := Bits) m ρ

/-- So does the idealized kernel. -/
theorem frame_ki : Cert.frame_KernelIdeal := fun m ρ _ => Cert.KernelIdeal.Layer.frame (F := Ideal) m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both idealized programs end with the two layers of the arguments in their
    result arrays: the kernel's by its run and the blocks' values, the reference's by its run read one operation at a time. -/
theorem algebraic : Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.LayerValue.result_eq m c), (h c).2⟩)
      (Cert.KernelIdeal.Layer.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v7_eq, Cert.RefValue.ref_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
